-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S2x1600000 : S_.BroadcastsInDim S2x1600000 (![] : Fin 0 → Fin S2x1600000.rank)
  reducesTo_S2x1600000_S_d0_1 : S2x1600000.ReducesTo [0, 1] S_

variable [Facts]

def fn {F : FTy → Type} [FloatOps F] (main_arg0 : FVec F S100000x48 .f32) (main_arg1 : IVec S2x1600000 32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_c_0 : IVec S_ 32 := constantI S_ 32 0#32
  let main_v4 : IVec S2x1600000 32 := broadcastInDim S2x1600000 ![] bcast_S_S2x1600000 main_c_0
  let main_v5 : IVec S2x1600000 1 := cmpi .sge main_arg1 main_v4
  let main_c_1 : IVec S_ 32 := constantI S_ 32 100000#32
  let main_v6 : IVec S2x1600000 32 := broadcastInDim S2x1600000 ![] bcast_S_S2x1600000 main_c_1
  let main_v7 : IVec S2x1600000 1 := cmpi .slt main_arg1 main_v6
  let main_v8 : IVec S2x1600000 1 := andi main_v5 main_v7
  let main_c_2 : IVec S_ 1 := constantI S_ 1 1#1
  let main_v9 : IVec S_ 1 := (fun x v => Host.reduce IntOp.andi x v reducesTo_S2x1600000_S_d0_1 h_S_) main_v8 main_c_2
  let main_v10 : IVec S_ 1 := andi main_v3 main_v9
  main_v10
-- ==== Kernel.lean ====
abbrev S100000x48 : Shape := ⟨2, ![100000, 48]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S1605632 : Shape := ⟨1, ![1605632]⟩
abbrev S1605632x1 : Shape := ⟨2, ![1605632, 1]⟩
abbrev S1 : Shape := ⟨1, ![1]⟩
abbrev S1x1 : Shape := ⟨2, ![1, 1]⟩
abbrev S1605632x48 : Shape := ⟨2, ![1605632, 48]⟩
abbrev S8192x48 : Shape := ⟨2, ![8192, 48]⟩
abbrev S8192 : Shape := ⟨1, ![8192]⟩
abbrev S1600000x1 : Shape := ⟨2, ![1600000, 1]⟩

abbrev nBuf : Space → Nat
  | .hbm => 92
  | .vmem => 6
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S100000x48, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S100000x1, .f32⟩
  | .hbm, ⟨11, _⟩ => ⟨S_, .f32⟩
  | .hbm, ⟨12, _⟩ => ⟨S100000x1, .f32⟩
  | .hbm, ⟨13, _⟩ => ⟨S100000x1, .f32⟩
  | .hbm, ⟨14, _⟩ => ⟨S100000x48, .f32⟩
  | .hbm, ⟨15, _⟩ => ⟨S100000x48, .f32⟩
  | .hbm, ⟨16, _⟩ => ⟨S_, .i32⟩
  | .hbm, ⟨17, _⟩ => ⟨S_, .i32⟩
  | .hbm, ⟨18, _⟩ => ⟨S1605632, .i32⟩
  | .hbm, ⟨19, _⟩ => ⟨S_, .i32⟩
  | .hbm, ⟨20, _⟩ => ⟨S_, .i32⟩
  | .hbm, ⟨21, _⟩ => ⟨S1605632, .i32⟩
  | .hbm, ⟨22, _⟩ => ⟨S_, .i32⟩
  | .hbm, ⟨23, _⟩ => ⟨S1605632, .i32⟩
  | .hbm, ⟨24, _⟩ => ⟨S1605632, .i1⟩
  | .hbm, ⟨25, _⟩ => ⟨S_, .i32⟩
  | .hbm, ⟨26, _⟩ => ⟨S1605632, .i32⟩
  | .hbm, ⟨27, _⟩ => ⟨S1605632, .i32⟩
  | .hbm, ⟨28, _⟩ => ⟨S1605632, .i32⟩
  | .hbm, ⟨29, _⟩ => ⟨S1605632x1, .i32⟩
  | .hbm, ⟨30, _⟩ => ⟨S1, .i32⟩
  | .hbm, ⟨31, _⟩ => ⟨S_, .i32⟩
  | .hbm, ⟨32, _⟩ => ⟨S1605632x1, .i32⟩
  | .hbm, ⟨33, _⟩ => ⟨S1605632x1, .i1⟩
  | .hbm, ⟨34, _⟩ => ⟨S1x1, .i32⟩
  | .hbm, ⟨35, _⟩ => ⟨S1605632x1, .i32⟩
  | .hbm, ⟨36, _⟩ => ⟨S1605632x1, .i1⟩
  | .hbm, ⟨37, _⟩ => ⟨S1605632x1, .i1⟩
  | .hbm, ⟨38, _⟩ => ⟨S_, .i1⟩
  | .hbm, ⟨39, _⟩ => ⟨S1605632, .i1⟩
  | .hbm, ⟨40, _⟩ => ⟨S1605632x48, .f32⟩
  | .hbm, ⟨41, _⟩ => ⟨S1605632x48, .i1⟩
  | .hbm, ⟨42, _⟩ => ⟨S_, .f32⟩
  | .hbm, ⟨43, _⟩ => ⟨S1605632x48, .f32⟩
  | .hbm, ⟨44, _⟩ => ⟨S1605632x48, .f32⟩
  | .hbm, ⟨45, _⟩ => ⟨S_, .i32⟩
  | .hbm, ⟨46, _⟩ => ⟨S1605632, .i32⟩
  | .hbm, ⟨47, _⟩ => ⟨S1605632, .i1⟩
  | .hbm, ⟨48, _⟩ => ⟨S_, .i32⟩
  | .hbm, ⟨49, _⟩ => ⟨S1605632, .i32⟩
  | .hbm, ⟨50, _⟩ => ⟨S1605632, .i32⟩
  | .hbm, ⟨51, _⟩ => ⟨S1605632, .i32⟩
  | .hbm, ⟨52, _⟩ => ⟨S1605632x1, .i32⟩
  | .hbm, ⟨53, _⟩ => ⟨S1, .i32⟩
  | .hbm, ⟨54, _⟩ => ⟨S_, .i32⟩
  | .hbm, ⟨55, _⟩ => ⟨S1605632x1, .i32⟩
  | .hbm, ⟨56, _⟩ => ⟨S1605632x1, .i1⟩
  | .hbm, ⟨57, _⟩ => ⟨S1x1, .i32⟩
  | .hbm, ⟨58, _⟩ => ⟨S1605632x1, .i32⟩
  | .hbm, ⟨59, _⟩ => ⟨S1605632x1, .i1⟩
  | .hbm, ⟨60, _⟩ => ⟨S1605632x1, .i1⟩
  | .hbm, ⟨61, _⟩ => ⟨S_, .i1⟩
  | .hbm, ⟨62, _⟩ => ⟨S1605632, .i1⟩
  | .hbm, ⟨63, _⟩ => ⟨S1605632x48, .f32⟩
  | .hbm, ⟨64, _⟩ => ⟨S1605632x48, .i1⟩
  | .hbm, ⟨65, _⟩ => ⟨S_, .f32⟩
  | .hbm, ⟨66, _⟩ => ⟨S1605632x48, .f32⟩
  | .hbm, ⟨67, _⟩ => ⟨S1605632x48, .f32⟩
  | .hbm, ⟨68, _⟩ => ⟨S1605632, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .i1⟩
  | .hbm, ⟨77, _⟩ => ⟨S_, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000, .f32⟩
  | .hbm, ⟨90, _⟩ => ⟨S1600000, .f32⟩
  | .hbm, ⟨91, _⟩ => ⟨S1600000, .f32⟩
  | .local _ .vmem, ⟨0, _⟩ => ⟨S8192x48, .f32⟩
  | .local _ .vmem, ⟨1, _⟩ => ⟨S8192x48, .f32⟩
  | .local _ .vmem, ⟨2, _⟩ => ⟨S8192x48, .f32⟩
  | .local _ .vmem, ⟨3, _⟩ => ⟨S8192x48, .f32⟩
  | .local _ .vmem, ⟨4, _⟩ => ⟨S8192, .f32⟩
  | .local _ .vmem, ⟨5, _⟩ => ⟨S8192, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call1_v0 : Ref sig .tc := ⟨.hbm, 17, rfl⟩
abbrev main_v9 : Ref sig .tc := ⟨.hbm, 18, rfl⟩
abbrev main_c_0 : Ref sig .tc := ⟨.hbm, 19, rfl⟩
abbrev main_call2_v0 : Ref sig .tc := ⟨.hbm, 20, rfl⟩
abbrev main_v10 : Ref sig .tc := ⟨.hbm, 21, rfl⟩
abbrev main_call3_c : Ref sig .tc := ⟨.hbm, 22, rfl⟩
abbrev main_call3_v0 : Ref sig .tc := ⟨.hbm, 23, rfl⟩
abbrev main_call3_v1 : Ref sig .tc := ⟨.hbm, 24, rfl⟩
abbrev main_call3_c_0 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_call3_v5 : Ref sig .tc := ⟨.hbm, 29, rfl⟩
abbrev main_call3_c_1 : Ref sig .tc := ⟨.hbm, 30, rfl⟩
abbrev main_call3_c_2 : Ref sig .tc := ⟨.hbm, 31, rfl⟩
abbrev main_call3_v6 : Ref sig .tc := ⟨.hbm, 32, rfl⟩
abbrev main_call3_v7 : Ref sig .tc := ⟨.hbm, 33, rfl⟩
abbrev main_call3_v8 : Ref sig .tc := ⟨.hbm, 34, rfl⟩
abbrev main_call3_v9 : Ref sig .tc := ⟨.hbm, 35, rfl⟩
abbrev main_call3_v10 : Ref sig .tc := ⟨.hbm, 36, rfl⟩
abbrev main_call3_v11 : Ref sig .tc := ⟨.hbm, 37, rfl⟩
abbrev main_call3_c_3 : Ref sig .tc := ⟨.hbm, 38, rfl⟩
abbrev main_call3_v12 : Ref sig .tc := ⟨.hbm, 39, rfl⟩
abbrev main_call3_v13 : Ref sig .tc := ⟨.hbm, 40, rfl⟩
abbrev main_call3_v14 : Ref sig .tc := ⟨.hbm, 41, rfl⟩
abbrev main_call3_cst : Ref sig .tc := ⟨.hbm, 42, rfl⟩
abbrev main_call3_v15 : Ref sig .tc := ⟨.hbm, 43, rfl⟩
abbrev main_v11 : Ref sig .tc := ⟨.hbm, 44, rfl⟩
abbrev main_call4_c : Ref sig .tc := ⟨.hbm, 45, rfl⟩
abbrev main_call4_v0 : Ref sig .tc := ⟨.hbm, 46, rfl⟩
abbrev main_call4_v1 : Ref sig .tc := ⟨.hbm, 47, rfl⟩
abbrev main_call4_c_0 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_c_1 : Ref sig .tc := ⟨.hbm, 53, rfl⟩
abbrev main_call4_c_2 : Ref sig .tc := ⟨.hbm, 54, rfl⟩
abbrev main_call4_v6 : Ref sig .tc := ⟨.hbm, 55, rfl⟩
abbrev main_call4_v7 : Ref sig .tc := ⟨.hbm, 56, rfl⟩
abbrev main_call4_v8 : Ref sig .tc := ⟨.hbm, 57, rfl⟩
abbrev main_call4_v9 : Ref sig .tc := ⟨.hbm, 58, rfl⟩
abbrev main_call4_v10 : Ref sig .tc := ⟨.hbm, 59, rfl⟩
abbrev main_call4_v11 : Ref sig .tc := ⟨.hbm, 60, rfl⟩
abbrev main_call4_c_3 : Ref sig .tc := ⟨.hbm, 61, rfl⟩
abbrev main_call4_v12 : Ref sig .tc := ⟨.hbm, 62, rfl⟩
abbrev main_call4_v13 : Ref sig .tc := ⟨.hbm, 63, rfl⟩
abbrev main_call4_v14 : Ref sig .tc := ⟨.hbm, 64, rfl⟩
abbrev main_call4_cst : Ref sig .tc := ⟨.hbm, 65, rfl⟩
abbrev main_call4_v15 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_cst_1 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst_2 : Ref sig .tc := ⟨.hbm, 74, rfl⟩
abbrev main_v18 : Ref sig .tc := ⟨.hbm, 75, rfl⟩
abbrev main_v19 : Ref sig .tc := ⟨.hbm, 76, rfl⟩
abbrev main_cst_3 : Ref sig .tc := ⟨.hbm, 77, rfl⟩
abbrev main_call5_v0 : Ref sig .tc := ⟨.hbm, 78, rfl⟩
abbrev main_call5_v1 : Ref sig .tc := ⟨.hbm, 79, rfl⟩
abbrev main_v20 : Ref sig .tc := ⟨.hbm, 80, rfl⟩
abbrev main_c_4 : Ref sig .tc := ⟨.hbm, 81, rfl⟩
abbrev main_v21 : Ref sig .tc := ⟨.hbm, 82, rfl⟩
abbrev main_v22 : Ref sig .tc := ⟨.hbm, 83, rfl⟩
abbrev main_c_5 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x48_S100000_d1 : S100000x48.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x48_0_1 : S100000x1.BroadcastsInDim S100000x48 (![0, 1] : Fin 2 → Fin S100000x48.rank)
  pads_S1600000_S1605632_056320 : S1600000.Pads (![0] : Fin 1 → Nat) ![5632] ![0] S1605632
  bcast_S_S1605632 : S_.BroadcastsInDim S1605632 (![] : Fin 0 → Fin S1605632.rank)
  bcast_S1605632_S1605632x1_0 : S1605632.BroadcastsInDim S1605632x1 (![0] : Fin 1 → Fin S1605632x1.rank)
  bcast_S_S1605632x1 : S_.BroadcastsInDim S1605632x1 (![] : Fin 0 → Fin S1605632x1.rank)
  bcast_S1_S1x1_1 : S1.BroadcastsInDim S1x1 (![1] : Fin 1 → Fin S1x1.rank)
  bcast_S1x1_S1605632x1_0_1 : S1x1.BroadcastsInDim S1605632x1 (![0, 1] : Fin 2 → Fin S1605632x1.rank)
  reducesTo_S1605632x1_S1605632_d1 : S1605632x1.ReducesTo [1] S1605632
  bcast_S1605632_S1605632x48_0 : S1605632.BroadcastsInDim S1605632x48 (![0] : Fin 1 → Fin S1605632x48.rank)
  bcast_S_S1605632x48 : S_.BroadcastsInDim S1605632x48 (![] : Fin 0 → Fin S1605632x48.rank)
  inb_S8192x48_S8192x48_0_0 : ∀ a, (![0, 0] : Fin 2 → Nat) a + S8192x48.size a ≤ S8192x48.size a
  h_S8192x48 : 0 < S8192x48.numel
  shapeCasts_S8192x48_S8192x48 : S8192x48.ShapeCasts S8192x48
  reduces_S8192x48_S8192 : S8192x48.Reduces [1] S8192
  inb_S8192_S8192_0 : ∀ a, (![0] : Fin 1 → Nat) a + S8192.size a ≤ S8192.size a
  h_S8192 : 0 < S8192.numel
  slices_S1605632_S1600000_0 : S1605632.Slices ![0] S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  gather_S100000x48_S1605632x1_S1605632x48_1_0_n_n_0_1_148_wf : GatherDims.WF S100000x48 S1605632x1 S1605632x48 [1] [0] [] [0] [] 1 ![1, 48]
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x48.size a ≤ S1605632x48.size a
  hwx0_0 : ∀ i : grid0.Coords, EltTy.bits .f32 = 32 ∨ (Rect.block (s := S1605632x48) S8192x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x48.size a ≤ S1605632x48.size a
  hwx0_1 : ∀ i : grid0.Coords, EltTy.bits .f32 = 32 ∨ (Rect.block (s := S1605632x48) S8192x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S1605632.size a
  hwx0_2 : ∀ i : grid0.Coords, EltTy.bits .f32 = 32 ∨ (Rect.block (s := S1605632) S8192.size (cc0_transform_2 i) (hinb0_2 i)).WholeWords (EltTy.packing .f32)

variable [Facts₀]

def gather_S100000x48_S1605632x1_S1605632x48_1_0_n_n_0_1_148 : GatherDims S100000x48 S1605632x1 S1605632x48 where
  offsetDims := [1]
  collapsedSliceDims := [0]
  operandBatchingDims := []
  startIndicesBatchingDims := []
  startIndexMap := [0]
  indexVectorDim := 1
  sliceSizes := ![1, 48]
  wf := gather_S100000x48_S1605632x1_S1605632x48_1_0_n_n_0_1_148_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf

abbrev win0_0 : Pipeline.Window sig grid0 :=
  Pipeline.Window.ofSpec (Memref.whole main_v11) S8192x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8192x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S100000 : Shape := ⟨1, ![100000]⟩

abbrev nBuf : Space → Nat
  | .hbm => 72
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x48, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x48, .f32⟩
  | .hbm, ⟨24, _⟩ => ⟨S1600000x48, .f32⟩
  | .hbm, ⟨25, _⟩ => ⟨S_, .f32⟩
  | .hbm, ⟨26, _⟩ => ⟨S1600000, .f32⟩
  | .hbm, ⟨27, _⟩ => ⟨S1600000x48, .f32⟩
  | .hbm, ⟨28, _⟩ => ⟨S_, .f32⟩
  | .hbm, ⟨29, _⟩ => ⟨S1600000, .f32⟩
  | .hbm, ⟨30, _⟩ => ⟨S1600000, .f32⟩
  | .hbm, ⟨31, _⟩ => ⟨S_, .f32⟩
  | .hbm, ⟨32, _⟩ => ⟨S1600000, .f32⟩
  | .hbm, ⟨33, _⟩ => ⟨S1600000, .f32⟩
  | .hbm, ⟨34, _⟩ => ⟨S1600000x48, .f32⟩
  | .hbm, ⟨35, _⟩ => ⟨S_, .f32⟩
  | .hbm, ⟨36, _⟩ => ⟨S1600000, .f32⟩
  | .hbm, ⟨37, _⟩ => ⟨S1600000, .f32⟩
  | .hbm, ⟨38, _⟩ => ⟨S_, .f32⟩
  | .hbm, ⟨39, _⟩ => ⟨S1600000, .f32⟩
  | .hbm, ⟨40, _⟩ => ⟨S1600000, .f32⟩
  | .hbm, ⟨41, _⟩ => ⟨S1600000, .f32⟩
  | .hbm, ⟨42, _⟩ => ⟨S1600000, .f32⟩
  | .hbm, ⟨43, _⟩ => ⟨S_, .f32⟩
  | .hbm, ⟨44, _⟩ => ⟨S1600000, .f32⟩
  | .hbm, ⟨45, _⟩ => ⟨S1600000, .i1⟩
  | .hbm, ⟨46, _⟩ => ⟨S_, .f32⟩
  | .hbm, ⟨47, _⟩ => ⟨S_, .f32⟩
  | .hbm, ⟨48, _⟩ => ⟨S1600000, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .i1⟩
  | .hbm, ⟨57, _⟩ => ⟨S_, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000, .f32⟩
  | .hbm, ⟨70, _⟩ => ⟨S1600000, .f32⟩
  | .hbm, ⟨71, _⟩ => ⟨S1600000, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_call3_v0 : Ref sig .tc := ⟨.hbm, 58, rfl⟩
abbrev main_call3_v1 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x48_S1600000_d1 : S1600000x48.ReducesTo [1] S1600000
  h_S_ : 0 < S_.numel
  bcast_S_S100000 : S_.BroadcastsInDim S100000 (![] : Fin 0 → Fin S100000.rank)
  gather_S100000x48_S1600000x1_S1600000x48_1_0_n_n_0_1_148_wf : GatherDims.WF S100000x48 S1600000x1 S1600000x48 [1] [0] [] [0] [] 1 ![1, 48]
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf

class Facts : Prop extends Facts₀ where

variable [Facts]
-- ==== Proof.PreRead.lean ====
/-
  READING THE PRINTED PRECONDITION. The precondition is a conjunction of two `jnp.all`s, printed as the `and` of two
  one-bit scalars, each a reduction by `and` over both axes from the initial value 1:

  * the first reduces the bits `|x i| < +∞` (the comparison of `max (x i) (-(x i))` with the value the word
    0x7F800000 denotes, which is `⊤`): an extended real whose absolute value is below `⊤` is neither `⊤` nor `⊥`,
    so it is a real;
  * the second reduces the bits `0 ≤ e ∧ e < 100000`, both comparisons signed, of the 32-bit entries.

  A reduction by `and` into the one-index result that is 1 met a 1 at every operand index; so the claim that the
  function is 1 gives each bit at each index, and each bit is read back as the order fact it decides.
-/
import proofs.«424825_j51505247814280_3_alg».proof.Pre_finite_inputs
import proofs.«424825_j51505247814280_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreRead

open Idealize.ShloMosaic
open Cert.Pre_finite_inputs

/-- The scalar shape has one index. -/
instance : Subsingleton S_.Idx := ⟨fun a b => funext fun d => d.elim0⟩

/-- The word 0x7F800000 denotes `+∞`. -/
theorem inf_word : Ideal.ofBits .f32 0x7F800000#32 = ⊤ := by simp [Ideal.ofBits, Ideal.ieee]

/-- An extended real whose absolute value `max a (-a)` tests below `+∞` is a real: `a < ⊤` excludes `⊤`, and
    `-a < ⊤` excludes `⊥`. -/
theorem real_of_abs_lt_inf (a : EReal)
    (h : Ideal.cmp .olt (max a (-a)) (Ideal.ofBits .f32 0x7F800000#32) = 1#1) : ∃ r : ℝ, a = (r : EReal) := by
  rw [inf_word] at h
  change BitVec.ofBool (decide (max a (-a) < ⊤)) = 1#1 at h
  rw [StableHlo.Predicate.ofBool_eq_one_iff, decide_eq_true_eq, max_lt_iff] at h
  induction a using EReal.rec with
  | bot => exact absurd h.2 (by simp)
  | coe r => exact ⟨r, rfl⟩
  | top => exact absurd h.1 (by simp)

/-- A 32-bit word that tests `0 ≤ e` and `e < 100000`, both signed, has its signed value in that range. -/
theorem range_of_bits (e : BitVec 32)
    (h : IntOp.andi (IntOp.cmpi .sge e 0#32) (IntOp.cmpi .slt e 100000#32) = 1#1) : 0 ≤ e.toInt ∧ e.toInt < 100000 := by
  obtain ⟨h0, h1⟩ := IntOp.andi_eq_one.1 h
  rw [IntOp.cmpi_sge] at h0
  rw [IntOp.cmpi_slt] at h1
  have z : (0#32 : BitVec 32).toInt = 0 := by decide
  have c : (100000#32 : BitVec 32).toInt = 100000 := by decide
  rw [z] at h0
  rw [c] at h1
  exact ⟨h0, h1⟩

/-- The precondition's two halves: each of its two scalars is 1. -/
theorem halves (x : FVec Ideal S100000x48 .f32) (ei : IVec S2x1600000 32)
    (h : fn (F := Ideal) x ei = fun _ => 1#1) :
    (∀ i : S100000x48.Idx, Ideal.cmp .olt (max (x i) (-(x i))) (Ideal.ofBits .f32 0x7F800000#32) = 1#1)
      ∧ (∀ i : S2x1600000.Idx, IntOp.andi (IntOp.cmpi .sge (ei i) 0#32) (IntOp.cmpi .slt (ei i) 100000#32) = 1#1) := by
  have e := congrFun h ValueIdx.ix0
  dsimp only [fn] at e
  obtain ⟨e1, e2⟩ := IntOp.andi_eq_one.1 e
  exact ⟨fun i => Host.reduce_andi_all _ _ _ _ _ e1 i, fun i => Host.reduce_andi_all _ _ _ _ _ e2 i⟩

/-- Every float entry the precondition admits is a real. -/
theorem real_of_pre (x : FVec Ideal Cert.Pre_finite_inputs.S100000x48 .f32) (ei : IVec Cert.Pre_finite_inputs.S2x1600000 32)
    (h : Cert.Pre_finite_inputs.fn (F := Ideal) x ei = fun _ => 1#1) (i : Cert.Pre_finite_inputs.S100000x48.Idx) :
    ∃ r : ℝ, x i = (r : EReal) :=
  real_of_abs_lt_inf (x i) ((halves x ei h).1 i)

/-- Every integer entry the precondition admits lies in [0, 100000), read signed. -/
theorem range_of_pre (x : FVec Ideal Cert.Pre_finite_inputs.S100000x48 .f32) (ei : IVec Cert.Pre_finite_inputs.S2x1600000 32)
    (h : Cert.Pre_finite_inputs.fn (F := Ideal) x ei = fun _ => 1#1) (i : Cert.Pre_finite_inputs.S2x1600000.Idx) :
    0 ≤ (ei i).toInt ∧ (ei i).toInt < 100000 :=
  range_of_bits (ei i) ((halves x ei h).2 i)

end Cert.PreRead

end
-- ==== Proof.CosineSpec.lean ====
/-
  Edge scores by cosine similarity, as one function of the node table and the edge list, and the one law that joins
  the two programs.

  A node table `x : [100000, 48]` of extended reals and an edge list `ei : [2, 1600000]` of 32-bit node ids. For a
  node `n` let `nrm x n = max (√(0 + Σ_k x[n,k]²)) ε` (ε the small positive clamp). One program divides every row by
  its clamped norm first and scores an edge `(r, c)` by the plain dot product `Σ_k (x[r,k] / nrm r) · (x[c,k] / nrm c)`;
  the other scores it by `(0 + Σ_k x[r,k] · x[c,k]) / (nrm r · nrm c)`. Both then zero a score below the threshold.
  When every entry of `x` is a real number each clamped norm is a POSITIVE REAL, division by it is multiplication by
  its reciprocal, and the two scores are the same real number: `scoreK_eq_scoreR`. (At an infinite entry the law
  fails: a quotient by an infinite norm is `0` on one side and the other side multiplies before it divides.)
-/
import Idealize.ShloMosaic.PureOps.Ideal
import Idealize.ShloMosaic.PureOps.Ideal.Laws
import Idealize.ShloMosaic.Lib.ValueIdx

noncomputable section

open scoped BigOperators

namespace Cert.Cosine

open Idealize.ShloMosaic Idealize.ShloMosaic.ValueIdx

/-- The node table's shape, the edge list's, and a per-edge vector's. -/
abbrev SN48 : Shape := ⟨2, ![100000, 48]⟩
abbrev SEI : Shape := ⟨2, ![2, 1600000]⟩
abbrev SE : Shape := ⟨1, ![1600000]⟩

/-- The row of the table a 32-bit node id selects: the id read as a signed integer, clamped into the table. -/
def nodeOf (w : BitVec 32) : Fin 100000 := ⟨min w.toInt.toNat 99999, by omega⟩

/-- An id in range selects its own row. -/
theorem nodeOf_val {w : BitVec 32} (h0 : 0 ≤ w.toInt) (h1 : w.toInt < 100000) : ((nodeOf w).val : Int) = w.toInt := by
  unfold nodeOf
  show ((min w.toInt.toNat 99999 : Nat) : Int) = w.toInt
  omega

/-- The sum of a row's squares, from the zero the sum starts at. -/
def sq (x : SN48.Idx → EReal) (n : Fin 100000) : EReal :=
  Ideal.ofBits .f32 0x00000000#32 + ∑ k : Fin 48, x (ix2 n k) * x (ix2 n k)

/-- A row's norm, clamped from below by the small positive constant. -/
def nrm (x : SN48.Idx → EReal) (n : Fin 100000) : EReal :=
  max (Ideal.sqrt (sq x n)) (Ideal.ofBits .f32 0x322BCC77#32)

/-- A score below the threshold becomes zero. -/
def thr (s : EReal) : EReal :=
  Scalar.select (Ideal.cmp .olt s (Ideal.ofBits .f32 0x3DCCCCCD#32)) (Ideal.ofBits .f32 0x00000000#32) s

/-- The score of an edge from row `r` to row `c`, rows normalised first. -/
def scoreK (x : SN48.Idx → EReal) (r c : Fin 100000) : EReal :=
  thr (∑ k : Fin 48, Ideal.div (x (ix2 r k)) (nrm x r) * Ideal.div (x (ix2 c k)) (nrm x c))

/-- The same score, the dot product divided by the product of the clamped norms. -/
def scoreR (x : SN48.Idx → EReal) (r c : Fin 100000) : EReal :=
  thr (Ideal.div (Ideal.ofBits .f32 0x00000000#32 + ∑ k : Fin 48, x (ix2 r k) * x (ix2 c k)) (nrm x r * nrm x c))

/-- A finite sum of reals, in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The clamp's pattern denotes a positive real. -/
theorem eps_pos_real : ∃ ε : ℝ, 0 < ε ∧ Ideal.ofBits .f32 0x322BCC77#32 = (ε : EReal) := by
  refine ⟨11258999 * (2 : ℝ) ^ (-50 : ℤ), by positivity, ?_⟩
  simp [Ideal.ofBits, Ideal.ieee, -EReal.coe_mul]

/-- Over a real table every clamped norm is a positive real. -/
theorem nrm_pos_real (x : SN48.Idx → EReal) (hx : ∀ i, ∃ a : ℝ, x i = (a : EReal)) (n : Fin 100000) :
    ∃ p : ℝ, 0 < p ∧ nrm x n = (p : EReal) := by
  choose a ha using hx
  obtain ⟨ε, hε, he⟩ := eps_pos_real
  have hs : sq x n = ((∑ k : Fin 48, a (ix2 n k) * a (ix2 n k) : ℝ) : EReal) := by
    unfold sq
    rw [Ideal.ofBits_zero_f32, zero_add, ← coe_sum]
    exact Finset.sum_congr rfl fun k _ => by rw [ha, EReal.coe_mul]
  have hnn : ¬ (∑ k : Fin 48, a (ix2 n k) * a (ix2 n k)) < 0 :=
    not_lt.mpr (Finset.sum_nonneg fun k _ => mul_self_nonneg _)
  refine ⟨max (Real.sqrt (∑ k : Fin 48, a (ix2 n k) * a (ix2 n k))) ε, lt_max_of_lt_right hε, ?_⟩
  unfold nrm
  rw [hs, Ideal.sqrt_coe, if_neg hnn, he]
  exact (Monotone.map_max EReal.coe_strictMono.monotone).symm

/-- THE LAW: real vectors divided by positive reals and then multiplied and summed, against the dot product divided
    by the product of the divisors. -/
theorem dot_div (a b : Fin 48 → ℝ) (p q : ℝ) (hp : 0 < p) (hq : 0 < q) :
    (∑ k : Fin 48, Ideal.div (a k : EReal) (p : EReal) * Ideal.div (b k : EReal) (q : EReal))
      = Ideal.div (Ideal.ofBits .f32 0x00000000#32 + ∑ k : Fin 48, (a k : EReal) * (b k : EReal)) ((p : EReal) * (q : EReal)) := by
  have hpq : p * q ≠ 0 := mul_ne_zero hp.ne' hq.ne'
  rw [Ideal.ofBits_zero_f32, zero_add, ← EReal.coe_mul p q, Ideal.div_coe hpq]
  have hl : ∀ k : Fin 48, Ideal.div (a k : EReal) (p : EReal) * Ideal.div (b k : EReal) (q : EReal)
      = ((a k * (1 / p) * (b k * (1 / q)) : ℝ) : EReal) := fun k => by
    rw [Ideal.div_coe hp.ne', Ideal.div_coe hq.ne', ← EReal.coe_mul, ← EReal.coe_mul, ← EReal.coe_mul]
  have hr : ∀ k : Fin 48, (a k : EReal) * (b k : EReal) = ((a k * b k : ℝ) : EReal) := fun k => (EReal.coe_mul _ _).symm
  rw [Finset.sum_congr rfl fun k _ => hl k, Finset.sum_congr rfl fun k _ => hr k, coe_sum, coe_sum, ← EReal.coe_mul]
  congr 1
  rw [Finset.sum_mul]
  refine Finset.sum_congr rfl fun k _ => ?_
  field_simp

/-- Over a real table the two scores of an edge are one number. -/
theorem scoreK_eq_scoreR (x : SN48.Idx → EReal) (hx : ∀ i, ∃ a : ℝ, x i = (a : EReal)) (r c : Fin 100000) :
    scoreK x r c = scoreR x r c := by
  obtain ⟨p, hp, hpe⟩ := nrm_pos_real x hx r
  obtain ⟨q, hq, hqe⟩ := nrm_pos_real x hx c
  choose a ha using hx
  unfold scoreK scoreR
  rw [hpe, hqe]
  simp only [ha]
  rw [dot_div (fun k => a (ix2 r k)) (fun k => a (ix2 c k)) p q hp hq]

end Cert.Cosine

end
-- ==== Proof.KernelBlock.lean ====
/-
  What the kernel's region leaves in its output array.

  The region walks 196 points; at point `t` it loads rows `8192·t … 8192·t + 8191` of the two gathered matrices
  `a, b : [1605632, 48]` and stores, for each of those rows `e`, the thresholded dot product
  `thr (Σ_k a[e,k] · b[e,k])`. The blocks tile the output vector, so after the run the whole vector is
  `rowDot a b`: one function of the two matrices as the region finds them.
-/
import proofs.«424825_j51505247814280_3_alg».proof.Proof.Gen.KernelIdeal.Frame
import proofs.«424825_j51505247814280_3_alg».proof.Proof.CosineSpec
import Idealize.ShloMosaic.Lib.Pipeline.Value
import Idealize.ShloMosaic.PureOps.Ideal.Laws
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- Per row of two matrices of 48 columns: the thresholded dot product of the two rows. -/
def rowDot {R : Nat} (a b : (⟨2, ![R, 48]⟩ : Shape).Idx → EReal) : (⟨1, ![R]⟩ : Shape).Idx → EReal :=
  fun i => Cert.Cosine.thr (∑ k : Fin 48, a (ix2 (i 0) k) * b (ix2 (i 0) k))

/-- A lane sum over the 48 columns of a block, at row `j`: the sum of the row. -/
theorem laneSum_apply (src : FVec Ideal S8192x48 .f32) (h : S8192x48.Reduces [1] S8192) (hφ : FKind.Formats FTy.f32)
    (hacc : (0x00000000#32 : BitVec 32) = FKind.add.neutral FTy.f32 hφ) (j : Fin 8192) :
    multiReduction (F := Ideal) .add [1] S8192 src 0x00000000#32 h hφ hacc (ix1 j) = ∑ k : Fin 48, src (ix2 j k) := by
  refine (Ideal.multiReduction_add_single src 0x00000000#32 h hφ hacc (ix1 j)).trans ?_
  refine Finset.sum_congr rfl fun k _ => congrArg src ?_
  funext a
  match a with
  | ⟨0, _⟩ => rfl
  | ⟨1, _⟩ => rfl

/-- The body's one stored value at row `j` of the block: the thresholded dot product of row `j` of the two loaded blocks. -/
theorem pay_apply (v0 v2 : Vec Ideal S8192x48 .f32) (j : Fin 8192) :
    k0_pay1 (F := Ideal) v0 v2 (ix1 j) = Cert.Cosine.thr (∑ k : Fin 48, v0 (ix2 j k) * v2 (ix2 j k)) := by
  unfold k0_pay1
  dsimp only
  rw [shapeCast_self, shapeCast_self]
  have hs := laneSum_apply (mulf v0 v2) reduces_S8192x48_S8192 (Or.inl rfl) rfl j
  unfold Cert.Cosine.thr
  show Scalar.select (Ideal.cmp .olt (multiReduction (F := Ideal) .add [1] S8192 (mulf v0 v2) 0x00000000#32 reduces_S8192x48_S8192 (Or.inl rfl) rfl (ix1 j)) (Ideal.ofBits .f32 0x3DCCCCCD#32))
      (Ideal.ofBits .f32 0x00000000#32) (multiReduction (F := Ideal) .add [1] S8192 (mulf v0 v2) 0x00000000#32 reduces_S8192x48_S8192 (Or.inl rfl) rfl (ix1 j)) = _
  rw [hs]
  rfl

/-- The same at any index of the stored block. -/
theorem pay_at (v0 v2 : Vec Ideal S8192x48 .f32) (y : S8192.Idx) :
    k0_pay1 (F := Ideal) v0 v2 y = Cert.Cosine.thr (∑ k : Fin 48, v0 (ix2 (y 0) k) * v2 (ix2 (y 0) k)) := by
  rw [eq_ix1 y]
  exact pay_apply v0 v2 (y 0)

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl

/-- The printed index maps, decided over the grid: both input windows sit at the output window's block on the row
    axis and at block 0 on the column axis, and the output's block index is below 196. -/
theorem idx_facts : ∀ t : Fin cfg0.N, win0_0.index t (0 : Fin 2) = win0_2.index t (0 : Fin 1)
    ∧ win0_0.index t (1 : Fin 2) = 0
    ∧ win0_1.index t (0 : Fin 2) = win0_2.index t (0 : Fin 1)
    ∧ win0_1.index t (1 : Fin 2) = 0
    ∧ win0_2.index t (0 : Fin 1) ≤ 195 :=
  (by decide +kernel : ∀ t : Fin grid0.N, _)

/-- The output window's block at point `t` is block number `t` (decided point by point). -/
theorem idx_val : ∀ t : Fin cfg0.N, win0_2.index t (0 : Fin 1) = t.val :=
  (by decide +kernel : ∀ t : Fin grid0.N, win0_2.index t (0 : Fin 1) = t.val)

/-- WHAT POINT `t` WRITES BACK is block `t` of `rowDot` of the two matrices as the region finds them. -/
theorem flushed_eq (c : Dev nD) (t : Fin cfg0.N) :
    (dats m 0 c).flushed 2 t = ((cfg0.win 2).blk t).view.read (Elt Ideal) (rowDot (V m c main_v11) (V m c main_v12)) := by
  show (cfg0.win 2).cut (grid0.coords t) ((dats m 0 c).after 2 t) = _
  rw [after0_2]
  unfold out0_2
  rw [View.canon_unit_zero hz1]
  simp only [View.ld_unit_zero (S := S8192x48) hz2]
  obtain ⟨e0, e1, e2, e3, e4⟩ := idx_facts t
  funext y
  refine (pay_at (iblk m c 0 t) (iblk m c 1 t) ((win0 2).xinj (grid0.coords t) y)).trans ?_
  rw [View.read_apply, cast_eq]
  unfold rowDot
  refine congrArg Cert.Cosine.thr (Finset.sum_congr rfl fun k _ => ?_)
  have h0 : iblk m c 0 t (ix2 ((win0 2).xinj (grid0.coords t) y 0) k)
      = V m c main_v11 (ix2 (((View.whole main_v13).slice ((win0 2).rect t)).emb y 0) k) := by
    unfold iblk
    rw [View.read_apply, cast_eq]
    refine congrArg (V m c main_v11) ?_
    funext a; apply Fin.ext
    match a with
    | ⟨0, _⟩ => show win0_0.index t (0 : Fin 2) * 8192 + 1 * (y 0).val = win0_2.index t (0 : Fin 1) * 8192 + 1 * (y 0).val; omega
    | ⟨1, _⟩ => show win0_0.index t (1 : Fin 2) * 48 + 1 * k.val = k.val; omega
  have h1 : iblk m c 1 t (ix2 ((win0 2).xinj (grid0.coords t) y 0) k)
      = V m c main_v12 (ix2 (((View.whole main_v13).slice ((win0 2).rect t)).emb y 0) k) := by
    unfold iblk
    rw [View.read_apply, cast_eq]
    refine congrArg (V m c main_v12) ?_
    funext a; apply Fin.ext
    match a with
    | ⟨0, _⟩ => show win0_1.index t (0 : Fin 2) * 8192 + 1 * (y 0).val = win0_2.index t (0 : Fin 1) * 8192 + 1 * (y 0).val; omega
    | ⟨1, _⟩ => show win0_1.index t (1 : Fin 2) * 48 + 1 * k.val = k.val; omega
  rw [h0, h1]

/-- An index of the output vector is in point `t`'s block iff it lies in the block's range of rows. -/
theorem mem_blk (t : Fin cfg0.N) (i : S1605632.Idx) :
    i ∈ ((cfg0.win 2).blk t).view.set ↔ ∀ a : Fin 1, win0_2.index t a * S8192.size a ≤ (i a).val ∧ (i a).val < win0_2.index t a * S8192.size a + S8192.size a := by
  show i ∈ ((View.whole main_v13).slice (win0_2.rect t)).set ↔ _
  rw [View.set_slice_whole, Rect.mem_set_unit]
  exact Iff.rfl

/-- Every index of the output vector lies in the block of the point `i / 8192`, which is written back. -/
theorem cover (i : S1605632.Idx) : ∃ t : Fin cfg0.N, (cfg0.win 2).flush t = true ∧ i ∈ ((cfg0.win 2).blk t).view.set := by
  have hi0 : (i 0).val < 1605632 := (i 0).isLt
  have hN : cfg0.N = 196 := N_0
  let t : Fin cfg0.N := ⟨(i 0).val / 8192, by rw [hN]; omega⟩
  have q0 : win0_2.index t (0 : Fin 1) = (i 0).val / 8192 := idx_val t
  refine ⟨t, flush0_2 t, ?_⟩
  rw [mem_blk]
  intro a
  match a with
  | ⟨0, _⟩ => show win0_2.index t (0 : Fin 1) * 8192 ≤ (i 0).val ∧ (i 0).val < win0_2.index t (0 : Fin 1) * 8192 + 8192; omega

/-- THE OUTPUT VECTOR after the run: `rowDot` of the two matrices the region was launched on. -/
theorem final (c : Dev nD) : (dats m 0 c).arrAt 2 cfg0.N = rowDot (V m c main_v11) (V m c main_v12) :=
  (dats m 0 c).arrAt_eq_of_cover 2 (rowDot (V m c main_v11) (V m c main_v12)) (fun t _ => flushed_eq m c t) cover

end Cert.KernelIdeal.Blocks

end
-- ==== Proof.LibGatherRows.lean ====
/-
  GATHER OF WHOLE ROWS OF A MATRIX, READ AT AN INDEX.

  What `x[idx]` / `jnp.take(x, idx, axis=0)` of a table `x : [N, D]` at an integer vector of `R` row numbers lowers to is
  `stablehlo.gather` with operand `[N, D]`, start indices `[R, 1]`, result `[R, D]` and the dimension numbers
  offset_dims `[1]`, collapsed_slice_dims `[0]`, no batching axes, start_index_map `[0]`, index_vector_dim `1`,
  slice_sizes `[1, D]` (`rowsDims`). This file reads that gather at one result element:

  * `gather_rows_apply`: result element `(e, k)` is `x` at row `min (idx[e, 0] read signed, as a natural) (N − 1)` and
    column `k`. On the row axis (collapsed, named by the start index map) the operand coordinate is the start index
    clamped into `[0, N − 1]`, as StableHLO clamps every start index so that the slice fits, with no batch and no offset
    part; on the column axis (kept, not in the start index map) the start is `0` and the operand coordinate is the
    result's coordinate on its one offset axis, `k`.
  * `gather_rows_apply_of_range`: when the start index read signed is a row number `n < N`, the clamp is the identity
    and the element is `x[n, k]`.

  The rank-1 analogue (a flat operand) is the library's `gather_take_apply`; this is the same reading with one kept axis.
-/
import Idealize.ShloMosaic.Lib.ValueIdx

noncomputable section

namespace Cert.LibGatherRows

open Idealize.ShloMosaic Idealize.ShloMosaic.ValueIdx

section Rows
variable {α : Type}

/-- The dimension numbers of a gather of whole rows: operand `[N, D]`, start indices `[R, 1]`, result `[R, D]`; the
    row axis is collapsed and is the one axis the start index names, the column axis is the result's one offset axis
    and is taken whole (slice sizes `[1, D]`). Their conditions `wf` are decided on a program's literal shapes. -/
abbrev rowsDims (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE GATHER READ AT `(e, k)`: the operand at the row the start index `idx[e, 0]` names, read signed and clamped into
    `[0, N − 1]`, and at column `k`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsDims N R D wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    -- the row axis: collapsed (no offset part), not batching, and the start index map's one entry
    show (rowsDims N R D wf).start (ix2 e k) idx 0 + (rowsDims N R D wf).batchCoord (ix2 e k) 0
        + (rowsDims N R D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R D wf).startIndexMap from List.mem_singleton.mpr rfl)]
    -- the start index is read at `[e, 0]`: the result's batch coordinate, then component 0 on the index vector's axis
    have hsi : (rowsDims N R D wf).siIdx (ix2 e k) ⟨List.idxOf (0 : Fin 2) (rowsDims N R D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: kept, so the start is 0 and the coordinate is the result's on its offset axis
    show (rowsDims N R D wf).start (ix2 e k) idx 1 + (rowsDims N R D wf).batchCoord (ix2 e k) 1
        + (rowsDims N R D wf).offCoord (ix2 e k) 1 = k.val
    have hk : (1 : Fin 2) ∈ (rowsDims N R D wf).sKept :=
      (GatherDims.mem_sKept _ _).mpr
        ⟨fun h => Nat.one_ne_zero (congrArg Fin.val (List.mem_singleton.mp h)), List.not_mem_nil⟩
    have hst : (rowsDims N R D wf).start (ix2 e k) idx 1 = 0 := by
      unfold GatherDims.start
      rw [dif_neg (show (1 : Fin 2) ∉ (rowsDims N R D wf).startIndexMap from
        fun h => Nat.one_ne_zero (congrArg Fin.val (List.mem_singleton.mp h)))]
    rw [hst, GatherDims.batchCoord_eq_zero _ _ _ List.not_mem_nil]
    simp only [Nat.zero_add]
    unfold GatherDims.offCoord
    rw [dif_pos hk]
    rfl

/-- THE GATHER AT AN INDEX IN RANGE: when the start index `idx[e, 0]`, read signed, is the row number `n < N`, the clamp
    is the identity and the result element `(e, k)` is `x[n, k]`. -/
theorem gather_rows_apply_of_range {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) (n : Fin N)
    (hn : (idx (ix2 e (0 : Fin 1))).toInt = (n.val : Int)) :
    Host.gather (rowsDims N R D wf) x idx (ix2 e k) = x (ix2 n k) := by
  rw [gather_rows_apply hN wf x idx e k]
  -- a natural read back from its integer cast is itself, and a row number is at most `N − 1`
  have hrow : (⟨min (idx (ix2 e (0 : Fin 1))).toInt.toNat (N - 1), by omega⟩ : Fin N) = n := by
    refine Fin.ext ?_
    show min (idx (ix2 e (0 : Fin 1))).toInt.toNat (N - 1) = n.val
    have hlt := n.isLt
    rw [hn, Int.toNat_natCast]
    omega
  rw [hrow]

end Rows

end Cert.LibGatherRows

end
-- ==== Proof.KernelHost.lean ====
/-
  THE TWO MATRICES THE KERNEL'S REGION IS LAUNCHED ON, READ AT AN ENTRY.

  Before the region the host program slices the two rows out of the edge list `ei : [2, 1600000]` and flattens them,
  divides every row of the node table `x : [100000, 48]` by its clamped norm `max (√(0 + Σ_k x[n,k]²)) ε`, pads each row
  of ids at its end by 5632 zeros, and takes rows of the normalised table at the padded ids: an id below zero is moved up
  by the table's length, rows are gathered at the ids clamped into the table, and the not-a-number word is selected where
  the moved id is outside `[0, 99999]`. When every id of the edge list is in `[0, 99999]` no id is moved, every range
  bit is set, the clamp is the identity, and at an edge slot `e` below the real edge count

      first matrix  (e, k) = x[ei[0, e], k] / nrm x (ei[0, e])        (`gathered0_apply`)
      second matrix (e, k) = x[ei[1, e], k] / nrm x (ei[1, e])        (`gathered1_apply`)

  with `nrm` the clamped norm of `Cert.Cosine`. `row_eq`: the buffer of the flattened first row, which the host
  operations after the region read again, holds the slice of the edge list's first row, reshaped.

  Every operation is first read at an index over variables of the literal vector types (the slice and reshape, the pad
  below the old extent, the wrap, the range bit and its reduction by `and` over the unit axis, the normalised entry, the
  take). The host operations are then run stretch by stretch from arbitrary buffer contents, each stretch's result a
  function of the buffers it reads, and the stretches are composed.
-/
import proofs.«424825_j51505247814280_3_alg».proof.Proof.Gen.KernelIdeal.Frame
import proofs.«424825_j51505247814280_3_alg».proof.Proof.CosineSpec
import proofs.«424825_j51505247814280_3_alg».proof.Proof.LibGatherRows
import Idealize.ShloMosaic.Lib.ValueIdx
import Idealize.ShloMosaic.Lib.Pipeline.Value
import Idealize.ShloMosaic.Lib.StableHlo.Run
import Idealize.ShloMosaic.Lib.ReduceAll
import Idealize.ShloMosaic.Lib.KernelVsHost
import Idealize.ShloMosaic.PureOps.Ideal.Laws

noncomputable section

open scoped BigOperators

namespace Cert.KernelIdeal.HostPrefix

open Cert.KernelIdeal Cert.KernelIdeal.Gen Idealize.ShloMosaic Idealize.ShloMosaic.TcCoe Idealize.ShloMosaic.ValueIdx Idealize.SL.Sem
open Idealize.ShloMosaic.StableHlo

/-! ## Layout operations at an index -/

/-- One row of the edge list, sliced out and flattened, at entry e: the edge list at that row and column e. -/
theorem ids_apply (x1 : IVec S2x1600000 32) (o : Nat) (ho : o < 2) (h : S2x1600000.Slices ![o, 0] S1x1600000)
    (e : Fin 1600000) :
    shapeCast S1600000 (extractStridedSlice S1x1600000 ![o, 0] x1 h) shapeCasts_S1x1600000_S1600000 (ix1 e)
      = x1 (ix2 (⟨o, ho⟩ : Fin 2) e) := by
  rw [shapeCast_apply _ shapeCasts_S1x1600000_S1600000 (ix1 e) (ix2 (0 : Fin 1) e) (by
    rewrite [Shape.rowMajor_val_two, Shape.rowMajor_val_one]; show 0 * 1600000 + e.val = e.val; omega)]
  exact extractStridedSlice_apply ![o, 0] x1 h (ix2 (0 : Fin 1) e) (ix2 ⟨o, ho⟩ e) (fun a => match a with
    | ⟨0, _⟩ => by show o = o + 0; omega
    | ⟨1, _⟩ => by show e.val = 0 + e.val; omega)

/-- A vector padded at its end, read below the old extent, is the old vector there. -/
theorem padded_apply (v : IVec S1600000 32) (z : IVec S_ 32) (e : Fin 1605632) (he : e.val < 1600000) :
    pad S1605632 ![0] ![5632] ![0] v z pads_S1600000_S1605632_056320 h_S_ (ix1 e) = v (ix1 (⟨e.val, he⟩ : Fin 1600000)) :=
  pad_apply_of_inside _ _ _ v z pads_S1600000_S1605632_056320 h_S_ (ix1 e) (ix1 ⟨e.val, he⟩) (fun a => match a with
    | ⟨0, _⟩ => by show e.val = 0 + e.val * (0 + 1); omega)

/-! ## Words -/

/-- A nonnegative id is not wrapped: the select on "id < 0" keeps the id. -/
theorem wrap_of_nonneg (w : BitVec 32) (h0 : 0 ≤ w.toInt) :
    Scalar.select (IntOp.cmpi .slt w 0#32) (IntOp.addi w 100000#32) w = w := by
  have hc : IntOp.cmpi .slt w 0#32 = 0#1 :=
    eq_zero_of_ne_one (fun h => by have := IntOp.cmpi_slt.mp h; simp at this; omega)
  rw [hc]; exact select_zero _ _

/-- An id in the table's range passes both bounds of the range test. -/
theorem inrange_bit (w : BitVec 32) (h0 : 0 ≤ w.toInt) (h1 : w.toInt < 100000) :
    IntOp.andi (IntOp.cmpi .sge w 0#32) (IntOp.cmpi .sle w 99999#32) = 1#1 :=
  IntOp.andi_eq_one.mpr ⟨IntOp.cmpi_sge.mpr (by simp; omega), IntOp.cmpi_sle.mpr (by
    have : (99999#32 : BitVec 32).toInt = 99999 := by decide
    rw [this]; omega)⟩

/-! ## A reduce by and of ones is one -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), IntOp.andi_eq_one.mpr ⟨rfl, rfl⟩]
    exact foldl_andi_one f l (fun n hn => h n (List.mem_cons_of_mem _ hn))

theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl, hi]
  exact foldl_andi_one x _ (fun i hm => hx i (of_decide_eq_true (List.mem_filter.mp hm).2))

/-! ## The host's float operations at an index, at the ideal instance -/

/-- The host's quotient at an index is the quotient of the elements. -/
theorem hostDivf_apply {s : Shape} {φ : FTy} (a b : FVec Ideal s φ) (i : s.Idx) : Host.divf a b i = Ideal.div (a i) (b i) := rfl
/-- The host's square root at an index is the square root of the element. -/
theorem hostSqrt_apply {s : Shape} {φ : FTy} (a : FVec Ideal s φ) (i : s.Idx) : Host.sqrt a i = Ideal.sqrt (a i) := rfl

/-! ## The normalised table -/

/-- The table's rows divided by their clamped norms, as the host operations spell it (at any float instance). -/
def tbl {F : FTy → Type} [FloatOps F] (x0 : FVec F S100000x48 .f32) : FVec F S100000x48 .f32 :=
  Host.divf x0 (broadcastInDim S100000x48 ![0, 1] bcast_S100000x1_S100000x48_0_1
    (maximumf
      (Host.sqrt (broadcastInDim S100000x1 ![0] bcast_S100000_S100000x1_0
        (Host.reduceAdd (mulf x0 x0) (constant (F := F) S_ .f32 0x00000000#32) reducesTo_S100000x48_S100000_d1 h_S_)))
      (broadcastInDim S100000x1 ![] bcast_S_S100000x1 (constant (F := F) S_ .f32 0x322BCC77#32))))

/-- The sum of a row's squares, from the zero the sum starts at. -/
theorem sumsq_apply (x0 : FVec Ideal S100000x48 .f32) (n : Fin 100000) :
    Host.reduceAdd (mulf x0 x0) (constant (F := Ideal) S_ .f32 0x00000000#32) reducesTo_S100000x48_S100000_d1 h_S_ (ix1 n)
      = Cert.Cosine.sq x0 n := by
  simp only [Host.reduceAdd, Ideal.hostReduceAdd_def]
  rw [Ideal.hostReduceAdd_single reducesTo_S100000x48_S100000_d1 (by decide)]
  unfold Cert.Cosine.sq
  refine congrArg (_ + ·) (Finset.sum_congr rfl fun k _ => ?_)
  rw [mulf_apply]
  have hi : (Shape.Reduces.lift (s := S100000x48) (t := S100000) (a := (1 : Fin 2)) (by decide) (ix1 n) k) = ix2 n k :=
    funext fun a => Fin.ext (by match a with | ⟨0, _⟩ => rfl | ⟨1, _⟩ => rfl)
  rw [hi]
  rfl

theorem tbl_apply (x0 : FVec Ideal S100000x48 .f32) (n : Fin 100000) (k : Fin 48) :
    tbl x0 (ix2 n k) = Ideal.div (x0 (ix2 n k)) (Cert.Cosine.nrm x0 n) := by
  unfold tbl
  rw [hostDivf_apply, broadcastInDim_apply _ bcast_S100000x1_S100000x48_0_1 _ (ix2 n k) (ix2 n (0 : Fin 1)) (fun a => match a with
    | ⟨0, _⟩ => by show n.val = if (100000 : Nat) = 1 then 0 else n.val; rw [if_neg (by decide)]
    | ⟨1, _⟩ => by show (0 : Nat) = if (1 : Nat) = 1 then 0 else k.val; rw [if_pos rfl]),
    maximumf_apply, hostSqrt_apply,
    broadcastInDim_apply _ bcast_S100000_S100000x1_0 _ (ix2 n (0 : Fin 1)) (ix1 n) (fun a => match a with
    | ⟨0, _⟩ => by show n.val = if (100000 : Nat) = 1 then 0 else n.val; rw [if_neg (by decide)]),
    broadcastInDim_apply _ bcast_S_S100000x1 _ (ix2 n (0 : Fin 1)) ix0 (fun a => a.elim0), sumsq_apply]
  rfl

/-! ## Integer vector operations at an index (definitional) -/

/-- An integer comparison at an index compares the elements. -/
theorem cmpi_apply {s : Shape} {w : Nat} (p : CmpIPredicate) (a b : IVec s w) (i : s.Idx) :
    cmpi p a b i = IntOp.cmpi p (a i) (b i) := rfl
/-- An integer sum at an index is the sum of the elements. -/
theorem addi_apply {s : Shape} {w : Nat} (a b : IVec s w) (i : s.Idx) : addi a b i = IntOp.addi (a i) (b i) := rfl
/-- A bitwise and at an index is the and of the elements. -/
theorem andi_apply {s : Shape} {w : Nat} (a b : IVec s w) (i : s.Idx) : andi a b i = IntOp.andi (a i) (b i) := rfl

/-! ## Rows of the table taken at a vector of ids -/

/-- The ids wrapped (an id below zero moved up by the table's length) and made a column. -/
def wrapCol (p : IVec S1605632 32) : IVec S1605632x1 32 :=
  broadcastInDim S1605632x1 ![0] bcast_S1605632_S1605632x1_0
    (select (cmpi .slt p (broadcastInDim S1605632 ![] bcast_S_S1605632 (constantI S_ 32 0#32)))
      (addi p (broadcastInDim S1605632 ![] bcast_S_S1605632 (constantI S_ 32 100000#32))) p)

/-- The range test's bit per id: both bounds, joined over the column's unit axis. -/
def inRange (q : IVec S1605632x1 32) : IVec S1605632 1 :=
  Host.reduce IntOp.andi
    (andi (cmpi .sge q (broadcastInDim S1605632x1 ![] bcast_S_S1605632x1 (constantI S_ 32 0#32)))
      (cmpi .sle q (broadcastInDim S1605632x1 ![0, 1] bcast_S1x1_S1605632x1_0_1
        (broadcastInDim S1x1 ![1] bcast_S1_S1x1_1 (constantI S1 32 99999#32)))))
    (constantI S_ 1 1#1) reducesTo_S1605632x1_S1605632_d1 h_S_

/-- The rows of t at the wrapped ids, and the not-a-number word where an id is out of range. -/
def takeRows {F : FTy → Type} [FloatOps F] (t : FVec F S100000x48 .f32) (p : IVec S1605632 32) : FVec F S1605632x48 .f32 :=
  select (broadcastInDim S1605632x48 ![0] bcast_S1605632_S1605632x48_0 (inRange (wrapCol p)))
    (Host.gather gather_S100000x48_S1605632x1_S1605632x48_1_0_n_n_0_1_148 t (wrapCol p))
    (broadcastInDim S1605632x48 ![] bcast_S_S1605632x48 (constant (F := F) S_ .f32 0x7FC00000#32))

/-- A nonnegative id's entry of the wrapped column is the id. -/
theorem wrapCol_apply (p : IVec S1605632 32) (e : Fin 1605632) (h0 : 0 ≤ (p (ix1 e)).toInt) :
    wrapCol p (ix2 e (0 : Fin 1)) = p (ix1 e) := by
  unfold wrapCol
  rw [broadcastInDim_apply _ bcast_S1605632_S1605632x1_0 _ (ix2 e (0 : Fin 1)) (ix1 e) (fun a => match a with
    | ⟨0, _⟩ => by show e.val = if (1605632 : Nat) = 1 then 0 else e.val; rw [if_neg (by decide)]),
    select_apply, cmpi_apply, addi_apply,
    broadcastInDim_apply _ bcast_S_S1605632 (constantI S_ 32 0#32) (ix1 e) ix0 (fun a => a.elim0),
    broadcastInDim_apply _ bcast_S_S1605632 (constantI S_ 32 100000#32) (ix1 e) ix0 (fun a => a.elim0)]
  exact wrap_of_nonneg _ h0

/-- An id in range has its range bit set. -/
theorem inRange_apply (q : IVec S1605632x1 32) (e : Fin 1605632) (h0 : 0 ≤ (q (ix2 e (0 : Fin 1))).toInt)
    (h1 : (q (ix2 e (0 : Fin 1))).toInt < 100000) : inRange q (ix1 e) = 1#1 := by
  unfold inRange
  refine reduce_andi_one _ _ _ _ (ix1 e) rfl (fun i hd => ?_)
  have hi : i = ix2 e (0 : Fin 1) := funext fun a => Fin.ext (by
    match a with
    | ⟨0, _⟩ => exact congrArg Fin.val (congrFun hd (0 : Fin 1))
    | ⟨1, _⟩ => have h1' : (i 1).val < 1 := (i 1).isLt; show (i 1).val = 0; omega)
  rw [hi, andi_apply, cmpi_apply, cmpi_apply,
    broadcastInDim_apply _ bcast_S_S1605632x1 (constantI S_ 32 0#32) (ix2 e (0 : Fin 1)) ix0 (fun a => a.elim0),
    broadcastInDim_apply _ bcast_S1x1_S1605632x1_0_1 _ (ix2 e (0 : Fin 1)) (ix2 (0 : Fin 1) (0 : Fin 1)) (fun a => match a with
      | ⟨0, _⟩ => by show (0 : Nat) = if (1 : Nat) = 1 then 0 else e.val; rw [if_pos rfl]
      | ⟨1, _⟩ => by show (0 : Nat) = if (1 : Nat) = 1 then 0 else 0; rw [if_pos rfl]),
    broadcastInDim_apply _ bcast_S1_S1x1_1 _ (ix2 (0 : Fin 1) (0 : Fin 1)) (ix1 (0 : Fin 1)) (fun a => match a with
      | ⟨0, _⟩ => by show (0 : Nat) = if (1 : Nat) = 1 then 0 else 0; rw [if_pos rfl])]
  exact inrange_bit _ h0 h1

/-- THE TAKE AT (e, k), for an id that is a row number n: row n of the table, column k. -/
theorem takeRows_apply (t : FVec Ideal S100000x48 .f32) (p : IVec S1605632 32) (e : Fin 1605632) (k : Fin 48) (n : Fin 100000)
    (hn : (p (ix1 e)).toInt = (n.val : Int)) : takeRows t p (ix2 e k) = t (ix2 n k) := by
  have hlt := n.isLt
  have h0 : 0 ≤ (p (ix1 e)).toInt := by rw [hn]; omega
  have hw := wrapCol_apply p e h0
  unfold takeRows
  rw [select_apply, broadcastInDim_apply _ bcast_S1605632_S1605632x48_0 _ (ix2 e k) (ix1 e) (fun a => match a with
    | ⟨0, _⟩ => by show e.val = if (1605632 : Nat) = 1 then 0 else e.val; rw [if_neg (by decide)]),
    inRange_apply _ e (by rw [hw]; exact h0) (by rw [hw, hn]; omega), select_one]
  rw [show gather_S100000x48_S1605632x1_S1605632x48_1_0_n_n_0_1_148
      = Cert.LibGatherRows.rowsDims 100000 1605632 48 gather_S100000x48_S1605632x1_S1605632x48_1_0_n_n_0_1_148_wf from rfl]
  exact Cert.LibGatherRows.gather_rows_apply_of_range (by decide) _ t _ e k n (by rw [hw]; exact hn)

/-! ## One endpoint's gathered matrix at an entry, over variables -/

/-- Row o of the edge list flattened and padded at its end, then rows of the normalised table taken at it: at an edge slot e
    below the real edge count and a column k, the entry is the table's at the node the edge list names there, divided by
    that node's clamped norm. The id is in range, so it is not wrapped and its range bit is set. -/
theorem gathered_of (x0 : FVec Ideal S100000x48 .f32) (x1 : IVec S2x1600000 32) (o : Nat) (ho : o < 2)
    (h : S2x1600000.Slices ![o, 0] S1x1600000)
    (hr : ∀ i : S2x1600000.Idx, 0 ≤ (x1 i).toInt ∧ (x1 i).toInt < 100000)
    (e : Fin 1605632) (he : e.val < 1600000) (k : Fin 48) :
    takeRows (tbl x0) (pad S1605632 ![0] ![5632] ![0]
        (shapeCast S1600000 (extractStridedSlice S1x1600000 ![o, 0] x1 h) shapeCasts_S1x1600000_S1600000)
        (constantI S_ 32 0#32) pads_S1600000_S1605632_056320 h_S_) (ix2 e k)
      = Ideal.div (x0 (ix2 (Cert.Cosine.nodeOf (x1 (ix2 (⟨o, ho⟩ : Fin 2) (⟨e.val, he⟩ : Fin 1600000)))) k))
          (Cert.Cosine.nrm x0 (Cert.Cosine.nodeOf (x1 (ix2 (⟨o, ho⟩ : Fin 2) (⟨e.val, he⟩ : Fin 1600000))))) := by
  have hp : pad S1605632 ![0] ![5632] ![0]
      (shapeCast S1600000 (extractStridedSlice S1x1600000 ![o, 0] x1 h) shapeCasts_S1x1600000_S1600000)
      (constantI S_ 32 0#32) pads_S1600000_S1605632_056320 h_S_ (ix1 e)
        = x1 (ix2 (⟨o, ho⟩ : Fin 2) (⟨e.val, he⟩ : Fin 1600000)) := by
    rw [padded_apply _ _ e he]; exact ids_apply x1 o ho h ⟨e.val, he⟩
  rw [takeRows_apply _ _ e k (Cert.Cosine.nodeOf (x1 (ix2 (⟨o, ho⟩ : Fin 2) (⟨e.val, he⟩ : Fin 1600000))))
      (by rw [hp]; exact (Cert.Cosine.nodeOf_val (hr _).1 (hr _).2).symm), tbl_apply]

/-! ## The host operations before the region, stretch by stretch

Each stretch is read from ANY buffer contents W before it: what it leaves in a buffer is a function of what W holds in
the buffers it reads. The transports along a literal reference's type equation are identities and are rewritten away
before the two sides are compared. -/

section Stretches
variable {F : FTy → Type} [FloatOps F] (W : Valuation τ sig (Elt F))

/-- The two take stretches leave in the first take's result the rows of the table buffer taken at the first padded ids. -/
theorem takes_v11 : (after hostOps0_7 (after hostOps0_6 W) (Proc.devRef .tc main_v11) : FVec F S1605632x48 .f32)
    = takeRows (W (Proc.devRef .tc main_v8)) (W (Proc.devRef .tc main_v9)) := by
  rw [← StableHlo.after_append]
  simp only [Gen.hostOps0_6, Gen.hostOps0_7, List.cons_append, List.nil_append]
  after_results_simp
  have t_main_call3_c : ∀ v : (⟨S_, .i32⟩ : BufTy).Contents (Elt F), (StableHlo.TRef.of (sig := sig) (T := ⟨S_, .i32⟩) main_call3_c).toBuf (Val := Elt F) v = v := fun v => rfl
  have o_main_call3_c : ∀ v, (StableHlo.TRef.of (sig := sig) (T := ⟨S_, .i32⟩) main_call3_c).ofBuf (Val := Elt F) v = v := fun v => rfl
  have t_main_call3_v0 : ∀ v : (⟨S1605632, .i32⟩ : BufTy).Contents (Elt F), (StableHlo.TRef.of (sig := sig) (T := ⟨S1605632, .i32⟩) main_call3_v0).toBuf (Val := Elt F) v = v := fun v => rfl
  have o_main_call3_v0 : ∀ v, (StableHlo.TRef.of (sig := sig) (T := ⟨S1605632, .i32⟩) main_call3_v0).ofBuf (Val := Elt F) v = v := fun v => rfl
  have t_main_v9 : ∀ v : (⟨S1605632, .i32⟩ : BufTy).Contents (Elt F), (StableHlo.TRef.of (sig := sig) (T := ⟨S1605632, .i32⟩) main_v9).toBuf (Val := Elt F) v = v := fun v => rfl
  have o_main_v9 : ∀ v, (StableHlo.TRef.of (sig := sig) (T := ⟨S1605632, .i32⟩) main_v9).ofBuf (Val := Elt F) v = v := fun v => rfl
  have t_main_call3_v1 : ∀ v : (⟨S1605632, .i1⟩ : BufTy).Contents (Elt F), (StableHlo.TRef.of (sig := sig) (T := ⟨S1605632, .i1⟩) main_call3_v1).toBuf (Val := Elt F) v = v := fun v => rfl
  have o_main_call3_v1 : ∀ v, (StableHlo.TRef.of (sig := sig) (T := ⟨S1605632, .i1⟩) main_call3_v1).ofBuf (Val := Elt F) v = v := fun v => rfl
  have t_main_call3_c_0 : ∀ v : (⟨S_, .i32⟩ : BufTy).Contents (Elt F), (StableHlo.TRef.of (sig := sig) (T := ⟨S_, .i32⟩) main_call3_c_0).toBuf (Val := Elt F) v = v := fun v => rfl
  have o_main_call3_c_0 : ∀ v, (StableHlo.TRef.of (sig := sig) (T := ⟨S_, .i32⟩) main_call3_c_0).ofBuf (Val := Elt F) v = v := fun v => rfl
  have t_main_call3_v2 : ∀ v : (⟨S1605632, .i32⟩ : BufTy).Contents (Elt F), (StableHlo.TRef.of (sig := sig) (T := ⟨S1605632, .i32⟩) main_call3_v2).toBuf (Val := Elt F) v = v := fun v => rfl
  have o_main_call3_v2 : ∀ v, (StableHlo.TRef.of (sig := sig) (T := ⟨S1605632, .i32⟩) main_call3_v2).ofBuf (Val := Elt F) v = v := fun v => rfl
  have t_main_call3_v3 : ∀ v : (⟨S1605632, .i32⟩ : BufTy).Contents (Elt F), (StableHlo.TRef.of (sig := sig) (T := ⟨S1605632, .i32⟩) main_call3_v3).toBuf (Val := Elt F) v = v := fun v => rfl
  have o_main_call3_v3 : ∀ v, (StableHlo.TRef.of (sig := sig) (T := ⟨S1605632, .i32⟩) main_call3_v3).ofBuf (Val := Elt F) v = v := fun v => rfl
  have t_main_call3_v4 : ∀ v : (⟨S1605632, .i32⟩ : BufTy).Contents (Elt F), (StableHlo.TRef.of (sig := sig) (T := ⟨S1605632, .i32⟩) main_call3_v4).toBuf (Val := Elt F) v = v := fun v => rfl
  have o_main_call3_v4 : ∀ v, (StableHlo.TRef.of (sig := sig) (T := ⟨S1605632, .i32⟩) main_call3_v4).ofBuf (Val := Elt F) v = v := fun v => rfl
  have t_main_call3_v5 : ∀ v : (⟨S1605632x1, .i32⟩ : BufTy).Contents (Elt F), (StableHlo.TRef.of (sig := sig) (T := ⟨S1605632x1, .i32⟩) main_call3_v5).toBuf (Val := Elt F) v = v := fun v => rfl
  have o_main_call3_v5 : ∀ v, (StableHlo.TRef.of (sig := sig) (T := ⟨S1605632x1, .i32⟩) main_call3_v5).ofBuf (Val := Elt F) v = v := fun v => rfl
  have t_main_call3_c_1 : ∀ v : (⟨S1, .i32⟩ : BufTy).Contents (Elt F), (StableHlo.TRef.of (sig := sig) (T := ⟨S1, .i32⟩) main_call3_c_1).toBuf (Val := Elt F) v = v := fun v => rfl
  have o_main_call3_c_1 : ∀ v, (StableHlo.TRef.of (sig := sig) (T := ⟨S1, .i32⟩) main_call3_c_1).ofBuf (Val := Elt F) v = v := fun v => rfl
  have t_main_call3_c_2 : ∀ v : (⟨S_, .i32⟩ : BufTy).Contents (Elt F), (StableHlo.TRef.of (sig := sig) (T := ⟨S_, .i32⟩) main_call3_c_2).toBuf (Val := Elt F) v = v := fun v => rfl
  have o_main_call3_c_2 : ∀ v, (StableHlo.TRef.of (sig := sig) (T := ⟨S_, .i32⟩) main_call3_c_2).ofBuf (Val := Elt F) v = v := fun v => rfl
  have t_main_call3_v6 : ∀ v : (⟨S1605632x1, .i32⟩ : BufTy).Contents (Elt F), (StableHlo.TRef.of (sig := sig) (T := ⟨S1605632x1, .i32⟩) main_call3_v6).toBuf (Val := Elt F) v = v := fun v => rfl
  have o_main_call3_v6 : ∀ v, (StableHlo.TRef.of (sig := sig) (T := ⟨S1605632x1, .i32⟩) main_call3_v6).ofBuf (Val := Elt F) v = v := fun v => rfl
  have t_main_call3_v7 : ∀ v : (⟨S1605632x1, .i1⟩ : BufTy).Contents (Elt F), (StableHlo.TRef.of (sig := sig) (T := ⟨S1605632x1, .i1⟩) main_call3_v7).toBuf (Val := Elt F) v = v := fun v => rfl
  have o_main_call3_v7 : ∀ v, (StableHlo.TRef.of (sig := sig) (T := ⟨S1605632x1, .i1⟩) main_call3_v7).ofBuf (Val := Elt F) v = v := fun v => rfl
  have t_main_call3_v8 : ∀ v : (⟨S1x1, .i32⟩ : BufTy).Contents (Elt F), (StableHlo.TRef.of (sig := sig) (T := ⟨S1x1, .i32⟩) main_call3_v8).toBuf (Val := Elt F) v = v := fun v => rfl
  have o_main_call3_v8 : ∀ v, (StableHlo.TRef.of (sig := sig) (T := ⟨S1x1, .i32⟩) main_call3_v8).ofBuf (Val := Elt F) v = v := fun v => rfl
  have t_main_call3_v9 : ∀ v : (⟨S1605632x1, .i32⟩ : BufTy).Contents (Elt F), (StableHlo.TRef.of (sig := sig) (T := ⟨S1605632x1, .i32⟩) main_call3_v9).toBuf (Val := Elt F) v = v := fun v => rfl
  have o_main_call3_v9 : ∀ v, (StableHlo.TRef.of (sig := sig) (T := ⟨S1605632x1, .i32⟩) main_call3_v9).ofBuf (Val := Elt F) v = v := fun v => rfl
  have t_main_call3_v10 : ∀ v : (⟨S1605632x1, .i1⟩ : BufTy).Contents (Elt F), (StableHlo.TRef.of (sig := sig) (T := ⟨S1605632x1, .i1⟩) main_call3_v10).toBuf (Val := Elt F) v = v := fun v => rfl
  have o_main_call3_v10 : ∀ v, (StableHlo.TRef.of (sig := sig) (T := ⟨S1605632x1, .i1⟩) main_call3_v10).ofBuf (Val := Elt F) v = v := fun v => rfl
  have t_main_call3_v11 : ∀ v : (⟨S1605632x1, .i1⟩ : BufTy).Contents (Elt F), (StableHlo.TRef.of (sig := sig) (T := ⟨S1605632x1, .i1⟩) main_call3_v11).toBuf (Val := Elt F) v = v := fun v => rfl
  have o_main_call3_v11 : ∀ v, (StableHlo.TRef.of (sig := sig) (T := ⟨S1605632x1, .i1⟩) main_call3_v11).ofBuf (Val := Elt F) v = v := fun v => rfl
  have t_main_call3_c_3 : ∀ v : (⟨S_, .i1⟩ : BufTy).Contents (Elt F), (StableHlo.TRef.of (sig := sig) (T := ⟨S_, .i1⟩) main_call3_c_3).toBuf (Val := Elt F) v = v := fun v => rfl
  have o_main_call3_c_3 : ∀ v, (StableHlo.TRef.of (sig := sig) (T := ⟨S_, .i1⟩) main_call3_c_3).ofBuf (Val := Elt F) v = v := fun v => rfl
  have t_main_call3_v12 : ∀ v : (⟨S1605632, .i1⟩ : BufTy).Contents (Elt F), (StableHlo.TRef.of (sig := sig) (T := ⟨S1605632, .i1⟩) main_call3_v12).toBuf (Val := Elt F) v = v := fun v => rfl
  have o_main_call3_v12 : ∀ v, (StableHlo.TRef.of (sig := sig) (T := ⟨S1605632, .i1⟩) main_call3_v12).ofBuf (Val := Elt F) v = v := fun v => rfl
  have t_main_v8 : ∀ v : (⟨S100000x48, .f32⟩ : BufTy).Contents (Elt F), (StableHlo.TRef.of (sig := sig) (T := ⟨S100000x48, .f32⟩) main_v8).toBuf (Val := Elt F) v = v := fun v => rfl
  have o_main_v8 : ∀ v, (StableHlo.TRef.of (sig := sig) (T := ⟨S100000x48, .f32⟩) main_v8).ofBuf (Val := Elt F) v = v := fun v => rfl
  have t_main_call3_v13 : ∀ v : (⟨S1605632x48, .f32⟩ : BufTy).Contents (Elt F), (StableHlo.TRef.of (sig := sig) (T := ⟨S1605632x48, .f32⟩) main_call3_v13).toBuf (Val := Elt F) v = v := fun v => rfl
  have o_main_call3_v13 : ∀ v, (StableHlo.TRef.of (sig := sig) (T := ⟨S1605632x48, .f32⟩) main_call3_v13).ofBuf (Val := Elt F) v = v := fun v => rfl
  have t_main_call3_v14 : ∀ v : (⟨S1605632x48, .i1⟩ : BufTy).Contents (Elt F), (StableHlo.TRef.of (sig := sig) (T := ⟨S1605632x48, .i1⟩) main_call3_v14).toBuf (Val := Elt F) v = v := fun v => rfl
  have o_main_call3_v14 : ∀ v, (StableHlo.TRef.of (sig := sig) (T := ⟨S1605632x48, .i1⟩) main_call3_v14).ofBuf (Val := Elt F) v = v := fun v => rfl
  have t_main_call3_cst : ∀ v : (⟨S_, .f32⟩ : BufTy).Contents (Elt F), (StableHlo.TRef.of (sig := sig) (T := ⟨S_, .f32⟩) main_call3_cst).toBuf (Val := Elt F) v = v := fun v => rfl
  have o_main_call3_cst : ∀ v, (StableHlo.TRef.of (sig := sig) (T := ⟨S_, .f32⟩) main_call3_cst).ofBuf (Val := Elt F) v = v := fun v => rfl
  have t_main_call3_v15 : ∀ v : (⟨S1605632x48, .f32⟩ : BufTy).Contents (Elt F), (StableHlo.TRef.of (sig := sig) (T := ⟨S1605632x48, .f32⟩) main_call3_v15).toBuf (Val := Elt F) v = v := fun v => rfl
  have o_main_call3_v15 : ∀ v, (StableHlo.TRef.of (sig := sig) (T := ⟨S1605632x48, .f32⟩) main_call3_v15).ofBuf (Val := Elt F) v = v := fun v => rfl
  have t_main_v11 : ∀ v : (⟨S1605632x48, .f32⟩ : BufTy).Contents (Elt F), (StableHlo.TRef.of (sig := sig) (T := ⟨S1605632x48, .f32⟩) main_v11).toBuf (Val := Elt F) v = v := fun v => rfl
  have o_main_v11 : ∀ v, (StableHlo.TRef.of (sig := sig) (T := ⟨S1605632x48, .f32⟩) main_v11).ofBuf (Val := Elt F) v = v := fun v => rfl
  have t_main_call4_c : ∀ v : (⟨S_, .i32⟩ : BufTy).Contents (Elt F), (StableHlo.TRef.of (sig := sig) (T := ⟨S_, .i32⟩) main_call4_c).toBuf (Val := Elt F) v = v := fun v => rfl
  have o_main_call4_c : ∀ v, (StableHlo.TRef.of (sig := sig) (T := ⟨S_, .i32⟩) main_call4_c).ofBuf (Val := Elt F) v = v := fun v => rfl
  have t_main_call4_v0 : ∀ v : (⟨S1605632, .i32⟩ : BufTy).Contents (Elt F), (StableHlo.TRef.of (sig := sig) (T := ⟨S1605632, .i32⟩) main_call4_v0).toBuf (Val := Elt F) v = v := fun v => rfl
  have o_main_call4_v0 : ∀ v, (StableHlo.TRef.of (sig := sig) (T := ⟨S1605632, .i32⟩) main_call4_v0).ofBuf (Val := Elt F) v = v := fun v => rfl
  have t_main_v10 : ∀ v : (⟨S1605632, .i32⟩ : BufTy).Contents (Elt F), (StableHlo.TRef.of (sig := sig) (T := ⟨S1605632, .i32⟩) main_v10).toBuf (Val := Elt F) v = v := fun v => rfl
  have o_main_v10 : ∀ v, (StableHlo.TRef.of (sig := sig) (T := ⟨S1605632, .i32⟩) main_v10).ofBuf (Val := Elt F) v = v := fun v => rfl
  have t_main_call4_v1 : ∀ v : (⟨S1605632, .i1⟩ : BufTy).Contents (Elt F), (StableHlo.TRef.of (sig := sig) (T := ⟨S1605632, .i1⟩) main_call4_v1).toBuf (Val := Elt F) v = v := fun v => rfl
  have o_main_call4_v1 : ∀ v, (StableHlo.TRef.of (sig := sig) (T := ⟨S1605632, .i1⟩) main_call4_v1).ofBuf (Val := Elt F) v = v := fun v => rfl
  have t_main_call4_c_0 : ∀ v : (⟨S_, .i32⟩ : BufTy).Contents (Elt F), (StableHlo.TRef.of (sig := sig) (T := ⟨S_, .i32⟩) main_call4_c_0).toBuf (Val := Elt F) v = v := fun v => rfl
  have o_main_call4_c_0 : ∀ v, (StableHlo.TRef.of (sig := sig) (T := ⟨S_, .i32⟩) main_call4_c_0).ofBuf (Val := Elt F) v = v := fun v => rfl
  have t_main_call4_v2 : ∀ v : (⟨S1605632, .i32⟩ : BufTy).Contents (Elt F), (StableHlo.TRef.of (sig := sig) (T := ⟨S1605632, .i32⟩) main_call4_v2).toBuf (Val := Elt F) v = v := fun v => rfl
  have o_main_call4_v2 : ∀ v, (StableHlo.TRef.of (sig := sig) (T := ⟨S1605632, .i32⟩) main_call4_v2).ofBuf (Val := Elt F) v = v := fun v => rfl
  have t_main_call4_v3 : ∀ v : (⟨S1605632, .i32⟩ : BufTy).Contents (Elt F), (StableHlo.TRef.of (sig := sig) (T := ⟨S1605632, .i32⟩) main_call4_v3).toBuf (Val := Elt F) v = v := fun v => rfl
  have o_main_call4_v3 : ∀ v, (StableHlo.TRef.of (sig := sig) (T := ⟨S1605632, .i32⟩) main_call4_v3).ofBuf (Val := Elt F) v = v := fun v => rfl
  have t_main_call4_v4 : ∀ v : (⟨S1605632, .i32⟩ : BufTy).Contents (Elt F), (StableHlo.TRef.of (sig := sig) (T := ⟨S1605632, .i32⟩) main_call4_v4).toBuf (Val := Elt F) v = v := fun v => rfl
  have o_main_call4_v4 : ∀ v, (StableHlo.TRef.of (sig := sig) (T := ⟨S1605632, .i32⟩) main_call4_v4).ofBuf (Val := Elt F) v = v := fun v => rfl
  have t_main_call4_v5 : ∀ v : (⟨S1605632x1, .i32⟩ : BufTy).Contents (Elt F), (StableHlo.TRef.of (sig := sig) (T := ⟨S1605632x1, .i32⟩) main_call4_v5).toBuf (Val := Elt F) v = v := fun v => rfl
  have o_main_call4_v5 : ∀ v, (StableHlo.TRef.of (sig := sig) (T := ⟨S1605632x1, .i32⟩) main_call4_v5).ofBuf (Val := Elt F) v = v := fun v => rfl
  have t_main_call4_c_1 : ∀ v : (⟨S1, .i32⟩ : BufTy).Contents (Elt F), (StableHlo.TRef.of (sig := sig) (T := ⟨S1, .i32⟩) main_call4_c_1).toBuf (Val := Elt F) v = v := fun v => rfl
  have o_main_call4_c_1 : ∀ v, (StableHlo.TRef.of (sig := sig) (T := ⟨S1, .i32⟩) main_call4_c_1).ofBuf (Val := Elt F) v = v := fun v => rfl
  have t_main_call4_c_2 : ∀ v : (⟨S_, .i32⟩ : BufTy).Contents (Elt F), (StableHlo.TRef.of (sig := sig) (T := ⟨S_, .i32⟩) main_call4_c_2).toBuf (Val := Elt F) v = v := fun v => rfl
  have o_main_call4_c_2 : ∀ v, (StableHlo.TRef.of (sig := sig) (T := ⟨S_, .i32⟩) main_call4_c_2).ofBuf (Val := Elt F) v = v := fun v => rfl
  have t_main_call4_v6 : ∀ v : (⟨S1605632x1, .i32⟩ : BufTy).Contents (Elt F), (StableHlo.TRef.of (sig := sig) (T := ⟨S1605632x1, .i32⟩) main_call4_v6).toBuf (Val := Elt F) v = v := fun v => rfl
  have o_main_call4_v6 : ∀ v, (StableHlo.TRef.of (sig := sig) (T := ⟨S1605632x1, .i32⟩) main_call4_v6).ofBuf (Val := Elt F) v = v := fun v => rfl
  have t_main_call4_v7 : ∀ v : (⟨S1605632x1, .i1⟩ : BufTy).Contents (Elt F), (StableHlo.TRef.of (sig := sig) (T := ⟨S1605632x1, .i1⟩) main_call4_v7).toBuf (Val := Elt F) v = v := fun v => rfl
  have o_main_call4_v7 : ∀ v, (StableHlo.TRef.of (sig := sig) (T := ⟨S1605632x1, .i1⟩) main_call4_v7).ofBuf (Val := Elt F) v = v := fun v => rfl
  have t_main_call4_v8 : ∀ v : (⟨S1x1, .i32⟩ : BufTy).Contents (Elt F), (StableHlo.TRef.of (sig := sig) (T := ⟨S1x1, .i32⟩) main_call4_v8).toBuf (Val := Elt F) v = v := fun v => rfl
  have o_main_call4_v8 : ∀ v, (StableHlo.TRef.of (sig := sig) (T := ⟨S1x1, .i32⟩) main_call4_v8).ofBuf (Val := Elt F) v = v := fun v => rfl
  have t_main_call4_v9 : ∀ v : (⟨S1605632x1, .i32⟩ : BufTy).Contents (Elt F), (StableHlo.TRef.of (sig := sig) (T := ⟨S1605632x1, .i32⟩) main_call4_v9).toBuf (Val := Elt F) v = v := fun v => rfl
  have o_main_call4_v9 : ∀ v, (StableHlo.TRef.of (sig := sig) (T := ⟨S1605632x1, .i32⟩) main_call4_v9).ofBuf (Val := Elt F) v = v := fun v => rfl
  have t_main_call4_v10 : ∀ v : (⟨S1605632x1, .i1⟩ : BufTy).Contents (Elt F), (StableHlo.TRef.of (sig := sig) (T := ⟨S1605632x1, .i1⟩) main_call4_v10).toBuf (Val := Elt F) v = v := fun v => rfl
  have o_main_call4_v10 : ∀ v, (StableHlo.TRef.of (sig := sig) (T := ⟨S1605632x1, .i1⟩) main_call4_v10).ofBuf (Val := Elt F) v = v := fun v => rfl
  have t_main_call4_v11 : ∀ v : (⟨S1605632x1, .i1⟩ : BufTy).Contents (Elt F), (StableHlo.TRef.of (sig := sig) (T := ⟨S1605632x1, .i1⟩) main_call4_v11).toBuf (Val := Elt F) v = v := fun v => rfl
  have o_main_call4_v11 : ∀ v, (StableHlo.TRef.of (sig := sig) (T := ⟨S1605632x1, .i1⟩) main_call4_v11).ofBuf (Val := Elt F) v = v := fun v => rfl
  have t_main_call4_c_3 : ∀ v : (⟨S_, .i1⟩ : BufTy).Contents (Elt F), (StableHlo.TRef.of (sig := sig) (T := ⟨S_, .i1⟩) main_call4_c_3).toBuf (Val := Elt F) v = v := fun v => rfl
  have o_main_call4_c_3 : ∀ v, (StableHlo.TRef.of (sig := sig) (T := ⟨S_, .i1⟩) main_call4_c_3).ofBuf (Val := Elt F) v = v := fun v => rfl
  have t_main_call4_v12 : ∀ v : (⟨S1605632, .i1⟩ : BufTy).Contents (Elt F), (StableHlo.TRef.of (sig := sig) (T := ⟨S1605632, .i1⟩) main_call4_v12).toBuf (Val := Elt F) v = v := fun v => rfl
  have o_main_call4_v12 : ∀ v, (StableHlo.TRef.of (sig := sig) (T := ⟨S1605632, .i1⟩) main_call4_v12).ofBuf (Val := Elt F) v = v := fun v => rfl
  have t_main_call4_v13 : ∀ v : (⟨S1605632x48, .f32⟩ : BufTy).Contents (Elt F), (StableHlo.TRef.of (sig := sig) (T := ⟨S1605632x48, .f32⟩) main_call4_v13).toBuf (Val := Elt F) v = v := fun v => rfl
  have o_main_call4_v13 : ∀ v, (StableHlo.TRef.of (sig := sig) (T := ⟨S1605632x48, .f32⟩) main_call4_v13).ofBuf (Val := Elt F) v = v := fun v => rfl
  have t_main_call4_v14 : ∀ v : (⟨S1605632x48, .i1⟩ : BufTy).Contents (Elt F), (StableHlo.TRef.of (sig := sig) (T := ⟨S1605632x48, .i1⟩) main_call4_v14).toBuf (Val := Elt F) v = v := fun v => rfl
  have o_main_call4_v14 : ∀ v, (StableHlo.TRef.of (sig := sig) (T := ⟨S1605632x48, .i1⟩) main_call4_v14).ofBuf (Val := Elt F) v = v := fun v => rfl
  have t_main_call4_cst : ∀ v : (⟨S_, .f32⟩ : BufTy).Contents (Elt F), (StableHlo.TRef.of (sig := sig) (T := ⟨S_, .f32⟩) main_call4_cst).toBuf (Val := Elt F) v = v := fun v => rfl
  have o_main_call4_cst : ∀ v, (StableHlo.TRef.of (sig := sig) (T := ⟨S_, .f32⟩) main_call4_cst).ofBuf (Val := Elt F) v = v := fun v => rfl
  have t_main_call4_v15 : ∀ v : (⟨S1605632x48, .f32⟩ : BufTy).Contents (Elt F), (StableHlo.TRef.of (sig := sig) (T := ⟨S1605632x48, .f32⟩) main_call4_v15).toBuf (Val := Elt F) v = v := fun v => rfl
  have o_main_call4_v15 : ∀ v, (StableHlo.TRef.of (sig := sig) (T := ⟨S1605632x48, .f32⟩) main_call4_v15).ofBuf (Val := Elt F) v = v := fun v => rfl
  have t_main_v12 : ∀ v : (⟨S1605632x48, .f32⟩ : BufTy).Contents (Elt F), (StableHlo.TRef.of (sig := sig) (T := ⟨S1605632x48, .f32⟩) main_v12).toBuf (Val := Elt F) v = v := fun v => rfl
  have o_main_v12 : ∀ v, (StableHlo.TRef.of (sig := sig) (T := ⟨S1605632x48, .f32⟩) main_v12).ofBuf (Val := Elt F) v = v := fun v => rfl
  simp only [t_main_call3_c, o_main_call3_c, t_main_call3_v0, o_main_call3_v0, t_main_v9, o_main_v9, t_main_call3_v1, o_main_call3_v1, t_main_call3_c_0, o_main_call3_c_0, t_main_call3_v2, o_main_call3_v2, t_main_call3_v3, o_main_call3_v3, t_main_call3_v4, o_main_call3_v4, t_main_call3_v5, o_main_call3_v5, t_main_call3_c_1, o_main_call3_c_1, t_main_call3_c_2, o_main_call3_c_2, t_main_call3_v6, o_main_call3_v6, t_main_call3_v7, o_main_call3_v7, t_main_call3_v8, o_main_call3_v8, t_main_call3_v9, o_main_call3_v9, t_main_call3_v10, o_main_call3_v10, t_main_call3_v11, o_main_call3_v11, t_main_call3_c_3, o_main_call3_c_3, t_main_call3_v12, o_main_call3_v12, t_main_v8, o_main_v8, t_main_call3_v13, o_main_call3_v13, t_main_call3_v14, o_main_call3_v14, t_main_call3_cst, o_main_call3_cst, t_main_call3_v15, o_main_call3_v15, t_main_v11, o_main_v11, t_main_call4_c, o_main_call4_c, t_main_call4_v0, o_main_call4_v0, t_main_v10, o_main_v10, t_main_call4_v1, o_main_call4_v1, t_main_call4_c_0, o_main_call4_c_0, t_main_call4_v2, o_main_call4_v2, t_main_call4_v3, o_main_call4_v3, t_main_call4_v4, o_main_call4_v4, t_main_call4_v5, o_main_call4_v5, t_main_call4_c_1, o_main_call4_c_1, t_main_call4_c_2, o_main_call4_c_2, t_main_call4_v6, o_main_call4_v6, t_main_call4_v7, o_main_call4_v7, t_main_call4_v8, o_main_call4_v8, t_main_call4_v9, o_main_call4_v9, t_main_call4_v10, o_main_call4_v10, t_main_call4_v11, o_main_call4_v11, t_main_call4_c_3, o_main_call4_c_3, t_main_call4_v12, o_main_call4_v12, t_main_call4_v13, o_main_call4_v13, t_main_call4_v14, o_main_call4_v14, t_main_call4_cst, o_main_call4_cst, t_main_call4_v15, o_main_call4_v15, t_main_v12, o_main_v12]
  rfl

/-- … and in the second take's result the rows taken at the second padded ids. -/
theorem takes_v12 : (after hostOps0_7 (after hostOps0_6 W) (Proc.devRef .tc main_v12) : FVec F S1605632x48 .f32)
    = takeRows (W (Proc.devRef .tc main_v8)) (W (Proc.devRef .tc main_v10)) := by
  rw [← StableHlo.after_append]
  simp only [Gen.hostOps0_6, Gen.hostOps0_7, List.cons_append, List.nil_append]
  after_results_simp
  have t_main_call3_c : ∀ v : (⟨S_, .i32⟩ : BufTy).Contents (Elt F), (StableHlo.TRef.of (sig := sig) (T := ⟨S_, .i32⟩) main_call3_c).toBuf (Val := Elt F) v = v := fun v => rfl
  have o_main_call3_c : ∀ v, (StableHlo.TRef.of (sig := sig) (T := ⟨S_, .i32⟩) main_call3_c).ofBuf (Val := Elt F) v = v := fun v => rfl
  have t_main_call3_v0 : ∀ v : (⟨S1605632, .i32⟩ : BufTy).Contents (Elt F), (StableHlo.TRef.of (sig := sig) (T := ⟨S1605632, .i32⟩) main_call3_v0).toBuf (Val := Elt F) v = v := fun v => rfl
  have o_main_call3_v0 : ∀ v, (StableHlo.TRef.of (sig := sig) (T := ⟨S1605632, .i32⟩) main_call3_v0).ofBuf (Val := Elt F) v = v := fun v => rfl
  have t_main_v9 : ∀ v : (⟨S1605632, .i32⟩ : BufTy).Contents (Elt F), (StableHlo.TRef.of (sig := sig) (T := ⟨S1605632, .i32⟩) main_v9).toBuf (Val := Elt F) v = v := fun v => rfl
  have o_main_v9 : ∀ v, (StableHlo.TRef.of (sig := sig) (T := ⟨S1605632, .i32⟩) main_v9).ofBuf (Val := Elt F) v = v := fun v => rfl
  have t_main_call3_v1 : ∀ v : (⟨S1605632, .i1⟩ : BufTy).Contents (Elt F), (StableHlo.TRef.of (sig := sig) (T := ⟨S1605632, .i1⟩) main_call3_v1).toBuf (Val := Elt F) v = v := fun v => rfl
  have o_main_call3_v1 : ∀ v, (StableHlo.TRef.of (sig := sig) (T := ⟨S1605632, .i1⟩) main_call3_v1).ofBuf (Val := Elt F) v = v := fun v => rfl
  have t_main_call3_c_0 : ∀ v : (⟨S_, .i32⟩ : BufTy).Contents (Elt F), (StableHlo.TRef.of (sig := sig) (T := ⟨S_, .i32⟩) main_call3_c_0).toBuf (Val := Elt F) v = v := fun v => rfl
  have o_main_call3_c_0 : ∀ v, (StableHlo.TRef.of (sig := sig) (T := ⟨S_, .i32⟩) main_call3_c_0).ofBuf (Val := Elt F) v = v := fun v => rfl
  have t_main_call3_v2 : ∀ v : (⟨S1605632, .i32⟩ : BufTy).Contents (Elt F), (StableHlo.TRef.of (sig := sig) (T := ⟨S1605632, .i32⟩) main_call3_v2).toBuf (Val := Elt F) v = v := fun v => rfl
  have o_main_call3_v2 : ∀ v, (StableHlo.TRef.of (sig := sig) (T := ⟨S1605632, .i32⟩) main_call3_v2).ofBuf (Val := Elt F) v = v := fun v => rfl
  have t_main_call3_v3 : ∀ v : (⟨S1605632, .i32⟩ : BufTy).Contents (Elt F), (StableHlo.TRef.of (sig := sig) (T := ⟨S1605632, .i32⟩) main_call3_v3).toBuf (Val := Elt F) v = v := fun v => rfl
  have o_main_call3_v3 : ∀ v, (StableHlo.TRef.of (sig := sig) (T := ⟨S1605632, .i32⟩) main_call3_v3).ofBuf (Val := Elt F) v = v := fun v => rfl
  have t_main_call3_v4 : ∀ v : (⟨S1605632, .i32⟩ : BufTy).Contents (Elt F), (StableHlo.TRef.of (sig := sig) (T := ⟨S1605632, .i32⟩) main_call3_v4).toBuf (Val := Elt F) v = v := fun v => rfl
  have o_main_call3_v4 : ∀ v, (StableHlo.TRef.of (sig := sig) (T := ⟨S1605632, .i32⟩) main_call3_v4).ofBuf (Val := Elt F) v = v := fun v => rfl
  have t_main_call3_v5 : ∀ v : (⟨S1605632x1, .i32⟩ : BufTy).Contents (Elt F), (StableHlo.TRef.of (sig := sig) (T := ⟨S1605632x1, .i32⟩) main_call3_v5).toBuf (Val := Elt F) v = v := fun v => rfl
  have o_main_call3_v5 : ∀ v, (StableHlo.TRef.of (sig := sig) (T := ⟨S1605632x1, .i32⟩) main_call3_v5).ofBuf (Val := Elt F) v = v := fun v => rfl
  have t_main_call3_c_1 : ∀ v : (⟨S1, .i32⟩ : BufTy).Contents (Elt F), (StableHlo.TRef.of (sig := sig) (T := ⟨S1, .i32⟩) main_call3_c_1).toBuf (Val := Elt F) v = v := fun v => rfl
  have o_main_call3_c_1 : ∀ v, (StableHlo.TRef.of (sig := sig) (T := ⟨S1, .i32⟩) main_call3_c_1).ofBuf (Val := Elt F) v = v := fun v => rfl
  have t_main_call3_c_2 : ∀ v : (⟨S_, .i32⟩ : BufTy).Contents (Elt F), (StableHlo.TRef.of (sig := sig) (T := ⟨S_, .i32⟩) main_call3_c_2).toBuf (Val := Elt F) v = v := fun v => rfl
  have o_main_call3_c_2 : ∀ v, (StableHlo.TRef.of (sig := sig) (T := ⟨S_, .i32⟩) main_call3_c_2).ofBuf (Val := Elt F) v = v := fun v => rfl
  have t_main_call3_v6 : ∀ v : (⟨S1605632x1, .i32⟩ : BufTy).Contents (Elt F), (StableHlo.TRef.of (sig := sig) (T := ⟨S1605632x1, .i32⟩) main_call3_v6).toBuf (Val := Elt F) v = v := fun v => rfl
  have o_main_call3_v6 : ∀ v, (StableHlo.TRef.of (sig := sig) (T := ⟨S1605632x1, .i32⟩) main_call3_v6).ofBuf (Val := Elt F) v = v := fun v => rfl
  have t_main_call3_v7 : ∀ v : (⟨S1605632x1, .i1⟩ : BufTy).Contents (Elt F), (StableHlo.TRef.of (sig := sig) (T := ⟨S1605632x1, .i1⟩) main_call3_v7).toBuf (Val := Elt F) v = v := fun v => rfl
  have o_main_call3_v7 : ∀ v, (StableHlo.TRef.of (sig := sig) (T := ⟨S1605632x1, .i1⟩) main_call3_v7).ofBuf (Val := Elt F) v = v := fun v => rfl
  have t_main_call3_v8 : ∀ v : (⟨S1x1, .i32⟩ : BufTy).Contents (Elt F), (StableHlo.TRef.of (sig := sig) (T := ⟨S1x1, .i32⟩) main_call3_v8).toBuf (Val := Elt F) v = v := fun v => rfl
  have o_main_call3_v8 : ∀ v, (StableHlo.TRef.of (sig := sig) (T := ⟨S1x1, .i32⟩) main_call3_v8).ofBuf (Val := Elt F) v = v := fun v => rfl
  have t_main_call3_v9 : ∀ v : (⟨S1605632x1, .i32⟩ : BufTy).Contents (Elt F), (StableHlo.TRef.of (sig := sig) (T := ⟨S1605632x1, .i32⟩) main_call3_v9).toBuf (Val := Elt F) v = v := fun v => rfl
  have o_main_call3_v9 : ∀ v, (StableHlo.TRef.of (sig := sig) (T := ⟨S1605632x1, .i32⟩) main_call3_v9).ofBuf (Val := Elt F) v = v := fun v => rfl
  have t_main_call3_v10 : ∀ v : (⟨S1605632x1, .i1⟩ : BufTy).Contents (Elt F), (StableHlo.TRef.of (sig := sig) (T := ⟨S1605632x1, .i1⟩) main_call3_v10).toBuf (Val := Elt F) v = v := fun v => rfl
  have o_main_call3_v10 : ∀ v, (StableHlo.TRef.of (sig := sig) (T := ⟨S1605632x1, .i1⟩) main_call3_v10).ofBuf (Val := Elt F) v = v := fun v => rfl
  have t_main_call3_v11 : ∀ v : (⟨S1605632x1, .i1⟩ : BufTy).Contents (Elt F), (StableHlo.TRef.of (sig := sig) (T := ⟨S1605632x1, .i1⟩) main_call3_v11).toBuf (Val := Elt F) v = v := fun v => rfl
  have o_main_call3_v11 : ∀ v, (StableHlo.TRef.of (sig := sig) (T := ⟨S1605632x1, .i1⟩) main_call3_v11).ofBuf (Val := Elt F) v = v := fun v => rfl
  have t_main_call3_c_3 : ∀ v : (⟨S_, .i1⟩ : BufTy).Contents (Elt F), (StableHlo.TRef.of (sig := sig) (T := ⟨S_, .i1⟩) main_call3_c_3).toBuf (Val := Elt F) v = v := fun v => rfl
  have o_main_call3_c_3 : ∀ v, (StableHlo.TRef.of (sig := sig) (T := ⟨S_, .i1⟩) main_call3_c_3).ofBuf (Val := Elt F) v = v := fun v => rfl
  have t_main_call3_v12 : ∀ v : (⟨S1605632, .i1⟩ : BufTy).Contents (Elt F), (StableHlo.TRef.of (sig := sig) (T := ⟨S1605632, .i1⟩) main_call3_v12).toBuf (Val := Elt F) v = v := fun v => rfl
  have o_main_call3_v12 : ∀ v, (StableHlo.TRef.of (sig := sig) (T := ⟨S1605632, .i1⟩) main_call3_v12).ofBuf (Val := Elt F) v = v := fun v => rfl
  have t_main_v8 : ∀ v : (⟨S100000x48, .f32⟩ : BufTy).Contents (Elt F), (StableHlo.TRef.of (sig := sig) (T := ⟨S100000x48, .f32⟩) main_v8).toBuf (Val := Elt F) v = v := fun v => rfl
  have o_main_v8 : ∀ v, (StableHlo.TRef.of (sig := sig) (T := ⟨S100000x48, .f32⟩) main_v8).ofBuf (Val := Elt F) v = v := fun v => rfl
  have t_main_call3_v13 : ∀ v : (⟨S1605632x48, .f32⟩ : BufTy).Contents (Elt F), (StableHlo.TRef.of (sig := sig) (T := ⟨S1605632x48, .f32⟩) main_call3_v13).toBuf (Val := Elt F) v = v := fun v => rfl
  have o_main_call3_v13 : ∀ v, (StableHlo.TRef.of (sig := sig) (T := ⟨S1605632x48, .f32⟩) main_call3_v13).ofBuf (Val := Elt F) v = v := fun v => rfl
  have t_main_call3_v14 : ∀ v : (⟨S1605632x48, .i1⟩ : BufTy).Contents (Elt F), (StableHlo.TRef.of (sig := sig) (T := ⟨S1605632x48, .i1⟩) main_call3_v14).toBuf (Val := Elt F) v = v := fun v => rfl
  have o_main_call3_v14 : ∀ v, (StableHlo.TRef.of (sig := sig) (T := ⟨S1605632x48, .i1⟩) main_call3_v14).ofBuf (Val := Elt F) v = v := fun v => rfl
  have t_main_call3_cst : ∀ v : (⟨S_, .f32⟩ : BufTy).Contents (Elt F), (StableHlo.TRef.of (sig := sig) (T := ⟨S_, .f32⟩) main_call3_cst).toBuf (Val := Elt F) v = v := fun v => rfl
  have o_main_call3_cst : ∀ v, (StableHlo.TRef.of (sig := sig) (T := ⟨S_, .f32⟩) main_call3_cst).ofBuf (Val := Elt F) v = v := fun v => rfl
  have t_main_call3_v15 : ∀ v : (⟨S1605632x48, .f32⟩ : BufTy).Contents (Elt F), (StableHlo.TRef.of (sig := sig) (T := ⟨S1605632x48, .f32⟩) main_call3_v15).toBuf (Val := Elt F) v = v := fun v => rfl
  have o_main_call3_v15 : ∀ v, (StableHlo.TRef.of (sig := sig) (T := ⟨S1605632x48, .f32⟩) main_call3_v15).ofBuf (Val := Elt F) v = v := fun v => rfl
  have t_main_v11 : ∀ v : (⟨S1605632x48, .f32⟩ : BufTy).Contents (Elt F), (StableHlo.TRef.of (sig := sig) (T := ⟨S1605632x48, .f32⟩) main_v11).toBuf (Val := Elt F) v = v := fun v => rfl
  have o_main_v11 : ∀ v, (StableHlo.TRef.of (sig := sig) (T := ⟨S1605632x48, .f32⟩) main_v11).ofBuf (Val := Elt F) v = v := fun v => rfl
  have t_main_call4_c : ∀ v : (⟨S_, .i32⟩ : BufTy).Contents (Elt F), (StableHlo.TRef.of (sig := sig) (T := ⟨S_, .i32⟩) main_call4_c).toBuf (Val := Elt F) v = v := fun v => rfl
  have o_main_call4_c : ∀ v, (StableHlo.TRef.of (sig := sig) (T := ⟨S_, .i32⟩) main_call4_c).ofBuf (Val := Elt F) v = v := fun v => rfl
  have t_main_call4_v0 : ∀ v : (⟨S1605632, .i32⟩ : BufTy).Contents (Elt F), (StableHlo.TRef.of (sig := sig) (T := ⟨S1605632, .i32⟩) main_call4_v0).toBuf (Val := Elt F) v = v := fun v => rfl
  have o_main_call4_v0 : ∀ v, (StableHlo.TRef.of (sig := sig) (T := ⟨S1605632, .i32⟩) main_call4_v0).ofBuf (Val := Elt F) v = v := fun v => rfl
  have t_main_v10 : ∀ v : (⟨S1605632, .i32⟩ : BufTy).Contents (Elt F), (StableHlo.TRef.of (sig := sig) (T := ⟨S1605632, .i32⟩) main_v10).toBuf (Val := Elt F) v = v := fun v => rfl
  have o_main_v10 : ∀ v, (StableHlo.TRef.of (sig := sig) (T := ⟨S1605632, .i32⟩) main_v10).ofBuf (Val := Elt F) v = v := fun v => rfl
  have t_main_call4_v1 : ∀ v : (⟨S1605632, .i1⟩ : BufTy).Contents (Elt F), (StableHlo.TRef.of (sig := sig) (T := ⟨S1605632, .i1⟩) main_call4_v1).toBuf (Val := Elt F) v = v := fun v => rfl
  have o_main_call4_v1 : ∀ v, (StableHlo.TRef.of (sig := sig) (T := ⟨S1605632, .i1⟩) main_call4_v1).ofBuf (Val := Elt F) v = v := fun v => rfl
  have t_main_call4_c_0 : ∀ v : (⟨S_, .i32⟩ : BufTy).Contents (Elt F), (StableHlo.TRef.of (sig := sig) (T := ⟨S_, .i32⟩) main_call4_c_0).toBuf (Val := Elt F) v = v := fun v => rfl
  have o_main_call4_c_0 : ∀ v, (StableHlo.TRef.of (sig := sig) (T := ⟨S_, .i32⟩) main_call4_c_0).ofBuf (Val := Elt F) v = v := fun v => rfl
  have t_main_call4_v2 : ∀ v : (⟨S1605632, .i32⟩ : BufTy).Contents (Elt F), (StableHlo.TRef.of (sig := sig) (T := ⟨S1605632, .i32⟩) main_call4_v2).toBuf (Val := Elt F) v = v := fun v => rfl
  have o_main_call4_v2 : ∀ v, (StableHlo.TRef.of (sig := sig) (T := ⟨S1605632, .i32⟩) main_call4_v2).ofBuf (Val := Elt F) v = v := fun v => rfl
  have t_main_call4_v3 : ∀ v : (⟨S1605632, .i32⟩ : BufTy).Contents (Elt F), (StableHlo.TRef.of (sig := sig) (T := ⟨S1605632, .i32⟩) main_call4_v3).toBuf (Val := Elt F) v = v := fun v => rfl
  have o_main_call4_v3 : ∀ v, (StableHlo.TRef.of (sig := sig) (T := ⟨S1605632, .i32⟩) main_call4_v3).ofBuf (Val := Elt F) v = v := fun v => rfl
  have t_main_call4_v4 : ∀ v : (⟨S1605632, .i32⟩ : BufTy).Contents (Elt F), (StableHlo.TRef.of (sig := sig) (T := ⟨S1605632, .i32⟩) main_call4_v4).toBuf (Val := Elt F) v = v := fun v => rfl
  have o_main_call4_v4 : ∀ v, (StableHlo.TRef.of (sig := sig) (T := ⟨S1605632, .i32⟩) main_call4_v4).ofBuf (Val := Elt F) v = v := fun v => rfl
  have t_main_call4_v5 : ∀ v : (⟨S1605632x1, .i32⟩ : BufTy).Contents (Elt F), (StableHlo.TRef.of (sig := sig) (T := ⟨S1605632x1, .i32⟩) main_call4_v5).toBuf (Val := Elt F) v = v := fun v => rfl
  have o_main_call4_v5 : ∀ v, (StableHlo.TRef.of (sig := sig) (T := ⟨S1605632x1, .i32⟩) main_call4_v5).ofBuf (Val := Elt F) v = v := fun v => rfl
  have t_main_call4_c_1 : ∀ v : (⟨S1, .i32⟩ : BufTy).Contents (Elt F), (StableHlo.TRef.of (sig := sig) (T := ⟨S1, .i32⟩) main_call4_c_1).toBuf (Val := Elt F) v = v := fun v => rfl
  have o_main_call4_c_1 : ∀ v, (StableHlo.TRef.of (sig := sig) (T := ⟨S1, .i32⟩) main_call4_c_1).ofBuf (Val := Elt F) v = v := fun v => rfl
  have t_main_call4_c_2 : ∀ v : (⟨S_, .i32⟩ : BufTy).Contents (Elt F), (StableHlo.TRef.of (sig := sig) (T := ⟨S_, .i32⟩) main_call4_c_2).toBuf (Val := Elt F) v = v := fun v => rfl
  have o_main_call4_c_2 : ∀ v, (StableHlo.TRef.of (sig := sig) (T := ⟨S_, .i32⟩) main_call4_c_2).ofBuf (Val := Elt F) v = v := fun v => rfl
  have t_main_call4_v6 : ∀ v : (⟨S1605632x1, .i32⟩ : BufTy).Contents (Elt F), (StableHlo.TRef.of (sig := sig) (T := ⟨S1605632x1, .i32⟩) main_call4_v6).toBuf (Val := Elt F) v = v := fun v => rfl
  have o_main_call4_v6 : ∀ v, (StableHlo.TRef.of (sig := sig) (T := ⟨S1605632x1, .i32⟩) main_call4_v6).ofBuf (Val := Elt F) v = v := fun v => rfl
  have t_main_call4_v7 : ∀ v : (⟨S1605632x1, .i1⟩ : BufTy).Contents (Elt F), (StableHlo.TRef.of (sig := sig) (T := ⟨S1605632x1, .i1⟩) main_call4_v7).toBuf (Val := Elt F) v = v := fun v => rfl
  have o_main_call4_v7 : ∀ v, (StableHlo.TRef.of (sig := sig) (T := ⟨S1605632x1, .i1⟩) main_call4_v7).ofBuf (Val := Elt F) v = v := fun v => rfl
  have t_main_call4_v8 : ∀ v : (⟨S1x1, .i32⟩ : BufTy).Contents (Elt F), (StableHlo.TRef.of (sig := sig) (T := ⟨S1x1, .i32⟩) main_call4_v8).toBuf (Val := Elt F) v = v := fun v => rfl
  have o_main_call4_v8 : ∀ v, (StableHlo.TRef.of (sig := sig) (T := ⟨S1x1, .i32⟩) main_call4_v8).ofBuf (Val := Elt F) v = v := fun v => rfl
  have t_main_call4_v9 : ∀ v : (⟨S1605632x1, .i32⟩ : BufTy).Contents (Elt F), (StableHlo.TRef.of (sig := sig) (T := ⟨S1605632x1, .i32⟩) main_call4_v9).toBuf (Val := Elt F) v = v := fun v => rfl
  have o_main_call4_v9 : ∀ v, (StableHlo.TRef.of (sig := sig) (T := ⟨S1605632x1, .i32⟩) main_call4_v9).ofBuf (Val := Elt F) v = v := fun v => rfl
  have t_main_call4_v10 : ∀ v : (⟨S1605632x1, .i1⟩ : BufTy).Contents (Elt F), (StableHlo.TRef.of (sig := sig) (T := ⟨S1605632x1, .i1⟩) main_call4_v10).toBuf (Val := Elt F) v = v := fun v => rfl
  have o_main_call4_v10 : ∀ v, (StableHlo.TRef.of (sig := sig) (T := ⟨S1605632x1, .i1⟩) main_call4_v10).ofBuf (Val := Elt F) v = v := fun v => rfl
  have t_main_call4_v11 : ∀ v : (⟨S1605632x1, .i1⟩ : BufTy).Contents (Elt F), (StableHlo.TRef.of (sig := sig) (T := ⟨S1605632x1, .i1⟩) main_call4_v11).toBuf (Val := Elt F) v = v := fun v => rfl
  have o_main_call4_v11 : ∀ v, (StableHlo.TRef.of (sig := sig) (T := ⟨S1605632x1, .i1⟩) main_call4_v11).ofBuf (Val := Elt F) v = v := fun v => rfl
  have t_main_call4_c_3 : ∀ v : (⟨S_, .i1⟩ : BufTy).Contents (Elt F), (StableHlo.TRef.of (sig := sig) (T := ⟨S_, .i1⟩) main_call4_c_3).toBuf (Val := Elt F) v = v := fun v => rfl
  have o_main_call4_c_3 : ∀ v, (StableHlo.TRef.of (sig := sig) (T := ⟨S_, .i1⟩) main_call4_c_3).ofBuf (Val := Elt F) v = v := fun v => rfl
  have t_main_call4_v12 : ∀ v : (⟨S1605632, .i1⟩ : BufTy).Contents (Elt F), (StableHlo.TRef.of (sig := sig) (T := ⟨S1605632, .i1⟩) main_call4_v12).toBuf (Val := Elt F) v = v := fun v => rfl
  have o_main_call4_v12 : ∀ v, (StableHlo.TRef.of (sig := sig) (T := ⟨S1605632, .i1⟩) main_call4_v12).ofBuf (Val := Elt F) v = v := fun v => rfl
  have t_main_call4_v13 : ∀ v : (⟨S1605632x48, .f32⟩ : BufTy).Contents (Elt F), (StableHlo.TRef.of (sig := sig) (T := ⟨S1605632x48, .f32⟩) main_call4_v13).toBuf (Val := Elt F) v = v := fun v => rfl
  have o_main_call4_v13 : ∀ v, (StableHlo.TRef.of (sig := sig) (T := ⟨S1605632x48, .f32⟩) main_call4_v13).ofBuf (Val := Elt F) v = v := fun v => rfl
  have t_main_call4_v14 : ∀ v : (⟨S1605632x48, .i1⟩ : BufTy).Contents (Elt F), (StableHlo.TRef.of (sig := sig) (T := ⟨S1605632x48, .i1⟩) main_call4_v14).toBuf (Val := Elt F) v = v := fun v => rfl
  have o_main_call4_v14 : ∀ v, (StableHlo.TRef.of (sig := sig) (T := ⟨S1605632x48, .i1⟩) main_call4_v14).ofBuf (Val := Elt F) v = v := fun v => rfl
  have t_main_call4_cst : ∀ v : (⟨S_, .f32⟩ : BufTy).Contents (Elt F), (StableHlo.TRef.of (sig := sig) (T := ⟨S_, .f32⟩) main_call4_cst).toBuf (Val := Elt F) v = v := fun v => rfl
  have o_main_call4_cst : ∀ v, (StableHlo.TRef.of (sig := sig) (T := ⟨S_, .f32⟩) main_call4_cst).ofBuf (Val := Elt F) v = v := fun v => rfl
  have t_main_call4_v15 : ∀ v : (⟨S1605632x48, .f32⟩ : BufTy).Contents (Elt F), (StableHlo.TRef.of (sig := sig) (T := ⟨S1605632x48, .f32⟩) main_call4_v15).toBuf (Val := Elt F) v = v := fun v => rfl
  have o_main_call4_v15 : ∀ v, (StableHlo.TRef.of (sig := sig) (T := ⟨S1605632x48, .f32⟩) main_call4_v15).ofBuf (Val := Elt F) v = v := fun v => rfl
  have t_main_v12 : ∀ v : (⟨S1605632x48, .f32⟩ : BufTy).Contents (Elt F), (StableHlo.TRef.of (sig := sig) (T := ⟨S1605632x48, .f32⟩) main_v12).toBuf (Val := Elt F) v = v := fun v => rfl
  have o_main_v12 : ∀ v, (StableHlo.TRef.of (sig := sig) (T := ⟨S1605632x48, .f32⟩) main_v12).ofBuf (Val := Elt F) v = v := fun v => rfl
  simp only [t_main_call3_c, o_main_call3_c, t_main_call3_v0, o_main_call3_v0, t_main_v9, o_main_v9, t_main_call3_v1, o_main_call3_v1, t_main_call3_c_0, o_main_call3_c_0, t_main_call3_v2, o_main_call3_v2, t_main_call3_v3, o_main_call3_v3, t_main_call3_v4, o_main_call3_v4, t_main_call3_v5, o_main_call3_v5, t_main_call3_c_1, o_main_call3_c_1, t_main_call3_c_2, o_main_call3_c_2, t_main_call3_v6, o_main_call3_v6, t_main_call3_v7, o_main_call3_v7, t_main_call3_v8, o_main_call3_v8, t_main_call3_v9, o_main_call3_v9, t_main_call3_v10, o_main_call3_v10, t_main_call3_v11, o_main_call3_v11, t_main_call3_c_3, o_main_call3_c_3, t_main_call3_v12, o_main_call3_v12, t_main_v8, o_main_v8, t_main_call3_v13, o_main_call3_v13, t_main_call3_v14, o_main_call3_v14, t_main_call3_cst, o_main_call3_cst, t_main_call3_v15, o_main_call3_v15, t_main_v11, o_main_v11, t_main_call4_c, o_main_call4_c, t_main_call4_v0, o_main_call4_v0, t_main_v10, o_main_v10, t_main_call4_v1, o_main_call4_v1, t_main_call4_c_0, o_main_call4_c_0, t_main_call4_v2, o_main_call4_v2, t_main_call4_v3, o_main_call4_v3, t_main_call4_v4, o_main_call4_v4, t_main_call4_v5, o_main_call4_v5, t_main_call4_c_1, o_main_call4_c_1, t_main_call4_c_2, o_main_call4_c_2, t_main_call4_v6, o_main_call4_v6, t_main_call4_v7, o_main_call4_v7, t_main_call4_v8, o_main_call4_v8, t_main_call4_v9, o_main_call4_v9, t_main_call4_v10, o_main_call4_v10, t_main_call4_v11, o_main_call4_v11, t_main_call4_c_3, o_main_call4_c_3, t_main_call4_v12, o_main_call4_v12, t_main_call4_v13, o_main_call4_v13, t_main_call4_v14, o_main_call4_v14, t_main_call4_cst, o_main_call4_cst, t_main_call4_v15, o_main_call4_v15, t_main_v12, o_main_v12]
  rfl

end Stretches

section Stretches2
variable {F : FTy → Type} [FloatOps F] (W : Valuation τ sig (Elt F))

/-- The pad stretches leave the first row of ids padded at its end by the zero the constant buffer holds … -/
theorem pads_v9 : (after hostOps0_5 (after hostOps0_4 (after hostOps0_3 W)) (Proc.devRef .tc main_v9) : IVec S1605632 32)
    = pad S1605632 ![0] ![5632] ![0] (W (Proc.devRef .tc main_v1) : IVec S1600000 32) (W (Proc.devRef .tc main_c) : IVec S_ 32) pads_S1600000_S1605632_056320 h_S_ := by
  rw [← StableHlo.after_append, ← StableHlo.after_append]
  simp only [Gen.hostOps0_3, Gen.hostOps0_4, Gen.hostOps0_5, List.cons_append, List.nil_append]
  after_results_simp
  have t_main_c : ∀ v : (⟨S_, .i32⟩ : BufTy).Contents (Elt F), (StableHlo.TRef.of (sig := sig) (T := ⟨S_, .i32⟩) main_c).toBuf (Val := Elt F) v = v := fun v => rfl
  have o_main_c : ∀ v, (StableHlo.TRef.of (sig := sig) (T := ⟨S_, .i32⟩) main_c).ofBuf (Val := Elt F) v = v := fun v => rfl
  have t_main_call1_v0 : ∀ v : (⟨S_, .i32⟩ : BufTy).Contents (Elt F), (StableHlo.TRef.of (sig := sig) (T := ⟨S_, .i32⟩) main_call1_v0).toBuf (Val := Elt F) v = v := fun v => rfl
  have o_main_call1_v0 : ∀ v, (StableHlo.TRef.of (sig := sig) (T := ⟨S_, .i32⟩) main_call1_v0).ofBuf (Val := Elt F) v = v := fun v => rfl
  have t_main_v1 : ∀ v : (⟨S1600000, .i32⟩ : BufTy).Contents (Elt F), (StableHlo.TRef.of (sig := sig) (T := ⟨S1600000, .i32⟩) main_v1).toBuf (Val := Elt F) v = v := fun v => rfl
  have o_main_v1 : ∀ v, (StableHlo.TRef.of (sig := sig) (T := ⟨S1600000, .i32⟩) main_v1).ofBuf (Val := Elt F) v = v := fun v => rfl
  have t_main_v9 : ∀ v : (⟨S1605632, .i32⟩ : BufTy).Contents (Elt F), (StableHlo.TRef.of (sig := sig) (T := ⟨S1605632, .i32⟩) main_v9).toBuf (Val := Elt F) v = v := fun v => rfl
  have o_main_v9 : ∀ v, (StableHlo.TRef.of (sig := sig) (T := ⟨S1605632, .i32⟩) main_v9).ofBuf (Val := Elt F) v = v := fun v => rfl
  have t_main_c_0 : ∀ v : (⟨S_, .i32⟩ : BufTy).Contents (Elt F), (StableHlo.TRef.of (sig := sig) (T := ⟨S_, .i32⟩) main_c_0).toBuf (Val := Elt F) v = v := fun v => rfl
  have o_main_c_0 : ∀ v, (StableHlo.TRef.of (sig := sig) (T := ⟨S_, .i32⟩) main_c_0).ofBuf (Val := Elt F) v = v := fun v => rfl
  have t_main_call2_v0 : ∀ v : (⟨S_, .i32⟩ : BufTy).Contents (Elt F), (StableHlo.TRef.of (sig := sig) (T := ⟨S_, .i32⟩) main_call2_v0).toBuf (Val := Elt F) v = v := fun v => rfl
  have o_main_call2_v0 : ∀ v, (StableHlo.TRef.of (sig := sig) (T := ⟨S_, .i32⟩) main_call2_v0).ofBuf (Val := Elt F) v = v := fun v => rfl
  have t_main_v3 : ∀ v : (⟨S1600000, .i32⟩ : BufTy).Contents (Elt F), (StableHlo.TRef.of (sig := sig) (T := ⟨S1600000, .i32⟩) main_v3).toBuf (Val := Elt F) v = v := fun v => rfl
  have o_main_v3 : ∀ v, (StableHlo.TRef.of (sig := sig) (T := ⟨S1600000, .i32⟩) main_v3).ofBuf (Val := Elt F) v = v := fun v => rfl
  have t_main_v10 : ∀ v : (⟨S1605632, .i32⟩ : BufTy).Contents (Elt F), (StableHlo.TRef.of (sig := sig) (T := ⟨S1605632, .i32⟩) main_v10).toBuf (Val := Elt F) v = v := fun v => rfl
  have o_main_v10 : ∀ v, (StableHlo.TRef.of (sig := sig) (T := ⟨S1605632, .i32⟩) main_v10).ofBuf (Val := Elt F) v = v := fun v => rfl
  simp only [t_main_c, o_main_c, t_main_call1_v0, o_main_call1_v0, t_main_v1, o_main_v1, t_main_v9, o_main_v9, t_main_c_0, o_main_c_0, t_main_call2_v0, o_main_call2_v0, t_main_v3, o_main_v3, t_main_v10, o_main_v10]
  rfl

/-- … the second row padded by the zero written between them … -/
theorem pads_v10 : (after hostOps0_5 (after hostOps0_4 (after hostOps0_3 W)) (Proc.devRef .tc main_v10) : IVec S1605632 32)
    = pad S1605632 ![0] ![5632] ![0] (W (Proc.devRef .tc main_v3) : IVec S1600000 32) (constantI S_ 32 0#32) pads_S1600000_S1605632_056320 h_S_ := by
  rw [← StableHlo.after_append, ← StableHlo.after_append]
  simp only [Gen.hostOps0_3, Gen.hostOps0_4, Gen.hostOps0_5, List.cons_append, List.nil_append]
  after_results_simp
  have t_main_c : ∀ v : (⟨S_, .i32⟩ : BufTy).Contents (Elt F), (StableHlo.TRef.of (sig := sig) (T := ⟨S_, .i32⟩) main_c).toBuf (Val := Elt F) v = v := fun v => rfl
  have o_main_c : ∀ v, (StableHlo.TRef.of (sig := sig) (T := ⟨S_, .i32⟩) main_c).ofBuf (Val := Elt F) v = v := fun v => rfl
  have t_main_call1_v0 : ∀ v : (⟨S_, .i32⟩ : BufTy).Contents (Elt F), (StableHlo.TRef.of (sig := sig) (T := ⟨S_, .i32⟩) main_call1_v0).toBuf (Val := Elt F) v = v := fun v => rfl
  have o_main_call1_v0 : ∀ v, (StableHlo.TRef.of (sig := sig) (T := ⟨S_, .i32⟩) main_call1_v0).ofBuf (Val := Elt F) v = v := fun v => rfl
  have t_main_v1 : ∀ v : (⟨S1600000, .i32⟩ : BufTy).Contents (Elt F), (StableHlo.TRef.of (sig := sig) (T := ⟨S1600000, .i32⟩) main_v1).toBuf (Val := Elt F) v = v := fun v => rfl
  have o_main_v1 : ∀ v, (StableHlo.TRef.of (sig := sig) (T := ⟨S1600000, .i32⟩) main_v1).ofBuf (Val := Elt F) v = v := fun v => rfl
  have t_main_v9 : ∀ v : (⟨S1605632, .i32⟩ : BufTy).Contents (Elt F), (StableHlo.TRef.of (sig := sig) (T := ⟨S1605632, .i32⟩) main_v9).toBuf (Val := Elt F) v = v := fun v => rfl
  have o_main_v9 : ∀ v, (StableHlo.TRef.of (sig := sig) (T := ⟨S1605632, .i32⟩) main_v9).ofBuf (Val := Elt F) v = v := fun v => rfl
  have t_main_c_0 : ∀ v : (⟨S_, .i32⟩ : BufTy).Contents (Elt F), (StableHlo.TRef.of (sig := sig) (T := ⟨S_, .i32⟩) main_c_0).toBuf (Val := Elt F) v = v := fun v => rfl
  have o_main_c_0 : ∀ v, (StableHlo.TRef.of (sig := sig) (T := ⟨S_, .i32⟩) main_c_0).ofBuf (Val := Elt F) v = v := fun v => rfl
  have t_main_call2_v0 : ∀ v : (⟨S_, .i32⟩ : BufTy).Contents (Elt F), (StableHlo.TRef.of (sig := sig) (T := ⟨S_, .i32⟩) main_call2_v0).toBuf (Val := Elt F) v = v := fun v => rfl
  have o_main_call2_v0 : ∀ v, (StableHlo.TRef.of (sig := sig) (T := ⟨S_, .i32⟩) main_call2_v0).ofBuf (Val := Elt F) v = v := fun v => rfl
  have t_main_v3 : ∀ v : (⟨S1600000, .i32⟩ : BufTy).Contents (Elt F), (StableHlo.TRef.of (sig := sig) (T := ⟨S1600000, .i32⟩) main_v3).toBuf (Val := Elt F) v = v := fun v => rfl
  have o_main_v3 : ∀ v, (StableHlo.TRef.of (sig := sig) (T := ⟨S1600000, .i32⟩) main_v3).ofBuf (Val := Elt F) v = v := fun v => rfl
  have t_main_v10 : ∀ v : (⟨S1605632, .i32⟩ : BufTy).Contents (Elt F), (StableHlo.TRef.of (sig := sig) (T := ⟨S1605632, .i32⟩) main_v10).toBuf (Val := Elt F) v = v := fun v => rfl
  have o_main_v10 : ∀ v, (StableHlo.TRef.of (sig := sig) (T := ⟨S1605632, .i32⟩) main_v10).ofBuf (Val := Elt F) v = v := fun v => rfl
  simp only [t_main_c, o_main_c, t_main_call1_v0, o_main_call1_v0, t_main_v1, o_main_v1, t_main_v9, o_main_v9, t_main_c_0, o_main_c_0, t_main_call2_v0, o_main_call2_v0, t_main_v3, o_main_v3, t_main_v10, o_main_v10]
  rfl

/-- … and the normalised table's buffer as it was. -/
theorem pads_v8 : after hostOps0_5 (after hostOps0_4 (after hostOps0_3 W)) (Proc.devRef .tc main_v8) = W (Proc.devRef .tc main_v8) := by
  rw [← StableHlo.after_append, ← StableHlo.after_append]
  simp only [Gen.hostOps0_3, Gen.hostOps0_4, Gen.hostOps0_5, List.cons_append, List.nil_append]
  after_results_simp

/-- The first three stretches leave the table's rows divided by their clamped norms … -/
theorem norm_v8 : (after hostOps0_2 (after hostOps0_1 (after hostOps0 W)) (Proc.devRef .tc main_v8) : FVec F S100000x48 .f32)
    = tbl (W (Proc.devRef .tc main_arg0) : FVec F S100000x48 .f32) := by
  rw [← StableHlo.after_append, ← StableHlo.after_append]
  simp only [Gen.hostOps0, Gen.hostOps0_1, Gen.hostOps0_2, List.cons_append, List.nil_append]
  after_results_simp
  have t_main_arg0 : ∀ v : (⟨S100000x48, .f32⟩ : BufTy).Contents (Elt F), (StableHlo.TRef.of (sig := sig) (T := ⟨S100000x48, .f32⟩) main_arg0).toBuf (Val := Elt F) v = v := fun v => rfl
  have o_main_arg0 : ∀ v, (StableHlo.TRef.of (sig := sig) (T := ⟨S100000x48, .f32⟩) main_arg0).ofBuf (Val := Elt F) v = v := fun v => rfl
  have t_main_call0_v0 : ∀ v : (⟨S100000x48, .f32⟩ : BufTy).Contents (Elt F), (StableHlo.TRef.of (sig := sig) (T := ⟨S100000x48, .f32⟩) main_call0_v0).toBuf (Val := Elt F) v = v := fun v => rfl
  have o_main_call0_v0 : ∀ v, (StableHlo.TRef.of (sig := sig) (T := ⟨S100000x48, .f32⟩) main_call0_v0).ofBuf (Val := Elt F) v = v := fun v => rfl
  have t_main_call0_cst : ∀ v : (⟨S_, .f32⟩ : BufTy).Contents (Elt F), (StableHlo.TRef.of (sig := sig) (T := ⟨S_, .f32⟩) main_call0_cst).toBuf (Val := Elt F) v = v := fun v => rfl
  have o_main_call0_cst : ∀ v, (StableHlo.TRef.of (sig := sig) (T := ⟨S_, .f32⟩) main_call0_cst).ofBuf (Val := Elt F) v = v := fun v => rfl
  have t_main_call0_v1 : ∀ v : (⟨S100000, .f32⟩ : BufTy).Contents (Elt F), (StableHlo.TRef.of (sig := sig) (T := ⟨S100000, .f32⟩) main_call0_v1).toBuf (Val := Elt F) v = v := fun v => rfl
  have o_main_call0_v1 : ∀ v, (StableHlo.TRef.of (sig := sig) (T := ⟨S100000, .f32⟩) main_call0_v1).ofBuf (Val := Elt F) v = v := fun v => rfl
  have t_main_call0_v2 : ∀ v : (⟨S100000x1, .f32⟩ : BufTy).Contents (Elt F), (StableHlo.TRef.of (sig := sig) (T := ⟨S100000x1, .f32⟩) main_call0_v2).toBuf (Val := Elt F) v = v := fun v => rfl
  have o_main_call0_v2 : ∀ v, (StableHlo.TRef.of (sig := sig) (T := ⟨S100000x1, .f32⟩) main_call0_v2).ofBuf (Val := Elt F) v = v := fun v => rfl
  have t_main_v4 : ∀ v : (⟨S100000x1, .f32⟩ : BufTy).Contents (Elt F), (StableHlo.TRef.of (sig := sig) (T := ⟨S100000x1, .f32⟩) main_v4).toBuf (Val := Elt F) v = v := fun v => rfl
  have o_main_v4 : ∀ v, (StableHlo.TRef.of (sig := sig) (T := ⟨S100000x1, .f32⟩) main_v4).ofBuf (Val := Elt F) v = v := fun v => rfl
  simp only [t_main_arg0, o_main_arg0, t_main_call0_v0, o_main_call0_v0, t_main_call0_cst, o_main_call0_cst, t_main_call0_v1, o_main_call0_v1, t_main_call0_v2, o_main_call0_v2, t_main_v4, o_main_v4]
  rfl

/-- … the edge list's first row, flattened … -/
theorem rows_v1 : (after hostOps0_2 (after hostOps0_1 (after hostOps0 W)) (Proc.devRef .tc main_v1) : IVec S1600000 32)
    = shapeCast S1600000 (extractStridedSlice S1x1600000 ![0, 0] (W (Proc.devRef .tc main_arg1) : IVec S2x1600000 32) slices_S2x1600000_S1x1600000_0_0)
        shapeCasts_S1x1600000_S1600000 := by
  rw [← StableHlo.after_append, ← StableHlo.after_append]
  simp only [Gen.hostOps0, Gen.hostOps0_1, Gen.hostOps0_2, List.cons_append, List.nil_append]
  after_results_simp
  rfl

/-- … its second row, flattened … -/
theorem rows_v3 : (after hostOps0_2 (after hostOps0_1 (after hostOps0 W)) (Proc.devRef .tc main_v3) : IVec S1600000 32)
    = shapeCast S1600000 (extractStridedSlice S1x1600000 ![1, 0] (W (Proc.devRef .tc main_arg1) : IVec S2x1600000 32) slices_S2x1600000_S1x1600000_1_0)
        shapeCasts_S1x1600000_S1600000 := by
  rw [← StableHlo.after_append, ← StableHlo.after_append]
  simp only [Gen.hostOps0, Gen.hostOps0_1, Gen.hostOps0_2, List.cons_append, List.nil_append]
  after_results_simp
  rfl

/-- … and the integer zero in the constant buffer. -/
theorem zero_c : (after hostOps0_2 (after hostOps0_1 (after hostOps0 W)) (Proc.devRef .tc main_c) : IVec S_ 32) = constantI S_ 32 0#32 := by
  rw [← StableHlo.after_append, ← StableHlo.after_append]
  simp only [Gen.hostOps0, Gen.hostOps0_1, Gen.hostOps0_2, List.cons_append, List.nil_append]
  after_results_simp

end Stretches2

/-! ## The arrays the region is launched on -/

section AtLaunch
variable {F : FTy → Type} [FloatOps F] (m : (ℓ : Loc nD τ sig) → Buf (Elt F) ℓ)

/-- The first row of the edge list, flattened: what the host operations before the region leave in its buffer. -/
theorem row_eq (c : Dev nD) : (V m c main_v1 : S1600000.Idx → BitVec 32)
    = shapeCast _ (extractStridedSlice S1x1600000 ![0, 0] (m ((c : Thread nD τ).loc main_arg1)) slices_S2x1600000_S1x1600000_0_0)
        shapeCasts_S1x1600000_S1600000 := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  rfl

/-- The first matrix the region reads: rows of the normalised table taken at the padded first row of the edge list. -/
theorem v11_eq (c : Dev nD) : (V m c main_v11 : FVec F S1605632x48 .f32)
    = takeRows (tbl (m ((c : Thread nD τ).loc main_arg0))) (pad S1605632 ![0] ![5632] ![0]
        (shapeCast S1600000 (extractStridedSlice S1x1600000 ![0, 0] (m ((c : Thread nD τ).loc main_arg1)) slices_S2x1600000_S1x1600000_0_0)
          shapeCasts_S1x1600000_S1600000)
        (constantI S_ 32 0#32) pads_S1600000_S1605632_056320 h_S_) := by
  dsimp only [Gen.V, Gen.V0]
  simp only [List.flatten_cons, List.flatten_nil, List.append_nil, StableHlo.after_append]
  rw [takes_v11, pads_v8, pads_v9, norm_v8, rows_v1, zero_c]

/-- The second matrix: the same at the padded second row. -/
theorem v12_eq (c : Dev nD) : (V m c main_v12 : FVec F S1605632x48 .f32)
    = takeRows (tbl (m ((c : Thread nD τ).loc main_arg0))) (pad S1605632 ![0] ![5632] ![0]
        (shapeCast S1600000 (extractStridedSlice S1x1600000 ![1, 0] (m ((c : Thread nD τ).loc main_arg1)) slices_S2x1600000_S1x1600000_1_0)
          shapeCasts_S1x1600000_S1600000)
        (constantI S_ 32 0#32) pads_S1600000_S1605632_056320 h_S_) := by
  dsimp only [Gen.V, Gen.V0]
  simp only [List.flatten_cons, List.flatten_nil, List.append_nil, StableHlo.after_append]
  rw [takes_v12, pads_v8, pads_v10, norm_v8, rows_v3]

end AtLaunch

/-! ## The two matrices at an entry -/

section Entries
variable (m : (ℓ : Loc nD τ sig) → Buf (Elt Ideal) ℓ)

/-- THE FIRST MATRIX AT (e, k), e below the real edge count: the table's entry at the edge's first endpoint and column k,
    divided by that node's clamped norm. -/
theorem gathered0_apply (c : Dev nD) (hr : ∀ i : S2x1600000.Idx, 0 ≤ (m ((c : Thread nD τ).loc main_arg1) i).toInt ∧ (m ((c : Thread nD τ).loc main_arg1) i).toInt < 100000)
    (e : Fin 1605632) (he : e.val < 1600000) (k : Fin 48) :
    V m c main_v11 (ix2 e k) = Ideal.div (m ((c : Thread nD τ).loc main_arg0) (ix2 (Cert.Cosine.nodeOf (m ((c : Thread nD τ).loc main_arg1) (ix2 (0 : Fin 2) (⟨e.val, he⟩ : Fin 1600000)))) k))
        (Cert.Cosine.nrm (m ((c : Thread nD τ).loc main_arg0)) (Cert.Cosine.nodeOf (m ((c : Thread nD τ).loc main_arg1) (ix2 (0 : Fin 2) (⟨e.val, he⟩ : Fin 1600000))))) :=
  (congrFun (v11_eq m c) (ix2 e k)).trans
    (gathered_of (m ((c : Thread nD τ).loc main_arg0)) (m ((c : Thread nD τ).loc main_arg1)) 0 (by decide) slices_S2x1600000_S1x1600000_0_0 hr e he k)

/-- THE SECOND MATRIX AT (e, k): the same at the edge's second endpoint. -/
theorem gathered1_apply (c : Dev nD) (hr : ∀ i : S2x1600000.Idx, 0 ≤ (m ((c : Thread nD τ).loc main_arg1) i).toInt ∧ (m ((c : Thread nD τ).loc main_arg1) i).toInt < 100000)
    (e : Fin 1605632) (he : e.val < 1600000) (k : Fin 48) :
    V m c main_v12 (ix2 e k) = Ideal.div (m ((c : Thread nD τ).loc main_arg0) (ix2 (Cert.Cosine.nodeOf (m ((c : Thread nD τ).loc main_arg1) (ix2 (1 : Fin 2) (⟨e.val, he⟩ : Fin 1600000)))) k))
        (Cert.Cosine.nrm (m ((c : Thread nD τ).loc main_arg0)) (Cert.Cosine.nodeOf (m ((c : Thread nD τ).loc main_arg1) (ix2 (1 : Fin 2) (⟨e.val, he⟩ : Fin 1600000))))) :=
  (congrFun (v12_eq m c) (ix2 e k)).trans
    (gathered_of (m ((c : Thread nD τ).loc main_arg0)) (m ((c : Thread nD τ).loc main_arg1)) 1 (by decide) slices_S2x1600000_S1x1600000_1_0 hr e he k)

end Entries

end Cert.KernelIdeal.HostPrefix

end
-- ==== Proof.CosineTail.lean ====
/-
  From edge scores to the result: both programs end with the same host computation.

  Given the edges' source ids `row` and their scores `att`: the row sums `S[n] = 0 + Σ_{e : row e = n} att e`
  (a scatter-add into zeros; an id outside the table adds nowhere), the denominators `D[n] = 1` where `S[n] = 0` and
  `S[n]` elsewhere, and the result `exp (att e / D[row e])`, the id wrapped if negative and clamped into the table as
  a gather reads it. It is stated once, over the operations both printed programs spell, with the shape evidence and
  the two dimension records as parameters: each program's result is this function of ITS `row` and `att`, so equal
  scores give equal results and the operations are never opened.
-/
import Idealize.ShloMosaic.PureOps.Ideal
import Idealize.ShloMosaic.PureOps.Contract
import proofs.«424825_j51505247814280_3_alg».proof.Proof.CosineSpec

noncomputable section

namespace Cert.Cosine

open Idealize.ShloMosaic

/-- A per-node vector, the ids as a one-column matrix, and the scalar shape. -/
abbrev SN : Shape := ⟨1, ![100000]⟩
abbrev SE1 : Shape := ⟨2, ![1600000, 1]⟩
abbrev S0 : Shape := ⟨0, ![]⟩

/-- Row sums of the scores, the zero-row guard, and `exp` of each score over its row's denominator. -/
def tail (bN : S0.BroadcastsInDim SN (![] : Fin 0 → Fin SN.rank)) (bE : S0.BroadcastsInDim SE (![] : Fin 0 → Fin SE.rank))
    (bE1 : SE.BroadcastsInDim SE1 (![0] : Fin 1 → Fin SE1.rank))
    (sc : ScatterDims SN SE1 SE) (g : GatherDims SN SE1 SE)
    (row : IVec SE 32) (att : FVec Ideal SE .f32) : FVec Ideal SE .f32 :=
  Host.exp (Host.divf att
    (Host.gather g
      (select
        (cmpf .oeq
          (Host.scatterAdd sc (broadcastInDim SN ![] bN (constant (F := Ideal) S0 .f32 0x00000000#32)) (broadcastInDim SE1 ![0] bE1 row) att)
          (broadcastInDim SN ![] bN (constant (F := Ideal) S0 .f32 0x00000000#32)))
        (broadcastInDim SN ![] bN (constant (F := Ideal) S0 .f32 0x3F800000#32))
        (Host.scatterAdd sc (broadcastInDim SN ![] bN (constant (F := Ideal) S0 .f32 0x00000000#32)) (broadcastInDim SE1 ![0] bE1 row) att))
      (broadcastInDim SE1 ![0] bE1
        (select (cmpi .slt row (broadcastInDim SE ![] bE (constantI S0 32 0#32)))
          (addi row (broadcastInDim SE ![] bE (constantI S0 32 100000#32))) row))))

end Cert.Cosine

end
-- ==== Proof.KernelTail.lean ====
/-
  THE KERNEL PROGRAM'S RESULT AFTER THE HOST OPERATIONS THAT FOLLOW ITS REGION.

  After the region the program runs 23 host operations: it slices the region's output array to its first 1600000
  entries (the edge scores), scatter-adds them into a zero vector at the source ids, replaces a zero row sum by one,
  gathers each edge's denominator at its wrapped source id, divides and exponentiates. Folding the operations over
  the buffer contents the region leaves gives, at the result buffer, one tree of those operations over two leaves:
  the region's output array (the third window's array, as the pipeline leaves it) and the vector of source ids,
  which no window holds and which is therefore as the operations before the region left it. That tree is the
  shared host tail applied to those two leaves.

  The three operations of the inlined zero-guard are stated over typed references; their transports along the
  references' type equations are identities, removed one by one before the two trees are compared.
-/
import proofs.«424825_j51505247814280_3_alg».proof.Proof.Gen.KernelIdeal.Frame
import proofs.«424825_j51505247814280_3_alg».proof.Proof.CosineTail
import Idealize.ShloMosaic.Lib.StableHlo.Run
import Idealize.ShloMosaic.Lib.Pipeline.FrameSuffix

set_option maxRecDepth 16384

noncomputable section

namespace Cert.KernelIdeal.HostTail

open Cert.KernelIdeal Cert.KernelIdeal.Gen Idealize.ShloMosaic Idealize.ShloMosaic.TcCoe Idealize.SL.Sem

variable (m : (ℓ : Loc nD τ sig) → Buf (Elt Ideal) ℓ)

/-- The region's output array is the third window's: after the region it holds what the pipeline left there. -/
theorem leaf_out (c : Dev nD) :
    Pipeline.withArrays (cfgs 0).spec c (V0 m c) (fun w => (dats m 0 c).arrAt w (cfgs 0).N) (Proc.devRef .tc main_v13)
      = (dats m 0 c).arrAt 2 cfg0.N :=
  Pipeline.withArrays_arr spec0 launch0.win.arr_inj c _ _ 2

/-- The source ids are no window's array: after the region they are as the operations before it left them. -/
theorem leaf_ids (c : Dev nD) :
    Pipeline.withArrays (cfgs 0).spec c (V0 m c) (fun w => (dats m 0 c).arrAt w (cfgs 0).N) (Proc.devRef .tc main_v1)
      = V m c main_v1 :=
  Pipeline.withArrays_of_ne _ c (V0 m c) _ main_v1 (by exact (by decide : ∀ w, Pipeline.arrRef spec0 w ≠ main_v1))

/-- THE RESULT: the result buffer after the host operations that follow the region is the shared host tail of the
    source ids and of the first 1600000 entries of the region's output array. -/
theorem result_eq (c : Dev nD) :
    Pipeline.afterTail₀ cfgs (dats m) 0 (V0 m) [hostOps1, hostOps1_1, hostOps1_2] c main_v29
      = Cert.Cosine.tail bcast_S_S100000 bcast_S_S1600000 bcast_S1600000_S1600000x1_0 scatter_S100000_S1600000x1_S1600000_n_0_0_1 gather_S100000_S1600000x1_S1600000_n_0_n_n_0_1_1
          (V m c main_v1)
          (extractStridedSlice S1600000 ![0] ((dats m 0 c).arrAt 2 cfg0.N) slices_S1605632_S1600000_0) := by
  unfold Pipeline.afterTail₀
  simp only [hostOps1, hostOps1_1, hostOps1_2, List.flatten_cons, List.flatten_nil, List.append_nil, List.cons_append, List.nil_append]
  after_results_simp
  rw [leaf_out m c, leaf_ids m c]
  -- the two leaves as opaque values: the comparison below never opens them
  generalize (dats m 0 c).arrAt 2 cfg0.N = A
  generalize V m c main_v1 = R
  unfold Cert.Cosine.tail
  -- each transport along a literal reference's type equation is the identity
  have t20 : ∀ x : (⟨S100000, .f32⟩ : BufTy).Contents (Elt Ideal),
      (StableHlo.TRef.of (sig := sig) (T := ⟨S100000, .f32⟩) main_v20).toBuf (Val := Elt Ideal) x = x := fun x => rfl
  have o19 : ∀ x, (StableHlo.TRef.of (sig := sig) (T := ⟨S100000, .i1⟩) main_v19).ofBuf (Val := Elt Ideal) x = x := fun x => rfl
  have o51 : ∀ x, (StableHlo.TRef.of (sig := sig) (T := ⟨S100000, .f32⟩) main_call5_v1).ofBuf (Val := Elt Ideal) x = x := fun x => rfl
  have t51 : ∀ x : (⟨S100000, .f32⟩ : BufTy).Contents (Elt Ideal),
      (StableHlo.TRef.of (sig := sig) (T := ⟨S100000, .f32⟩) main_call5_v1).toBuf (Val := Elt Ideal) x = x := fun x => rfl
  have o50 : ∀ x, (StableHlo.TRef.of (sig := sig) (T := ⟨S_, .f32⟩) main_call5_v0).ofBuf (Val := Elt Ideal) x = x := fun x => rfl
  have t50 : ∀ x : (⟨S_, .f32⟩ : BufTy).Contents (Elt Ideal),
      (StableHlo.TRef.of (sig := sig) (T := ⟨S_, .f32⟩) main_call5_v0).toBuf (Val := Elt Ideal) x = x := fun x => rfl
  have oc3 : ∀ x, (StableHlo.TRef.of (sig := sig) (T := ⟨S_, .f32⟩) main_cst_3).ofBuf (Val := Elt Ideal) x = x := fun x => rfl
  have o17 : ∀ x, (StableHlo.TRef.of (sig := sig) (T := ⟨S100000, .f32⟩) main_v17).ofBuf (Val := Elt Ideal) x = x := fun x => rfl
  rw [t20, o19, o51, t51, o50, t50, oc3, o17]
  rfl

end Cert.KernelIdeal.HostTail

end
-- ==== Proof.KernelValue.lean ====
/-
  The kernel program's result, as a function of its arguments.

  The region's output vector is `rowDot a b` of the two gathered matrices; the host keeps its first 1600000 entries
  as the edge scores `att`, and the result is the common host tail of the source ids and `att`. Under the
  precondition (ids in range) row `e < 1600000` of `a` is the row of the normalised table that edge `e`'s source id
  selects, and of `b` its target's, so `att e` is the edge's score with the rows normalised first.
-/
import proofs.«424825_j51505247814280_3_alg».proof.Proof.Gen.KernelIdeal.Frame
import proofs.«424825_j51505247814280_3_alg».proof.Proof.KernelBlock
import proofs.«424825_j51505247814280_3_alg».proof.Proof.KernelHost
import proofs.«424825_j51505247814280_3_alg».proof.Proof.KernelTail
import proofs.«424825_j51505247814280_3_alg».proof.Proof.CosineTail
import Idealize.ShloMosaic.Lib.Pipeline.Value

set_option maxRecDepth 16384

noncomputable section

open scoped BigOperators

namespace Cert.KernelIdeal.Result

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The edge scores the host keeps: the first 1600000 entries of the region's output vector. -/
def att (c : Dev nD) : S1600000.Idx → EReal :=
  extractStridedSlice S1600000 ![0] (Blocks.rowDot (V m c main_v11) (V m c main_v12)) slices_S1605632_S1600000_0

/-- The program's second result: the host tail of the source ids and the scores. -/
def res (c : Dev nD) : S1600000.Idx → EReal :=
  Cert.Cosine.tail bcast_S_S100000 bcast_S_S1600000 bcast_S1600000_S1600000x1_0 scatter_S100000_S1600000x1_S1600000_n_0_0_1
    gather_S100000_S1600000x1_S1600000_n_0_n_n_0_1_1 (V m c main_v1) (att m c)

/-- Every weakly fair execution ends with the result buffer at `res` and the arguments unchanged. -/
theorem run : θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v29) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_arg1 (Pipeline.mem_restRefs_of main_arg1 (by decide) (by decide))).trans (W_main_arg1 m (dats m) c),
     ((h c).2 main_v29 (Pipeline.mem_restRefs_of main_v29 (by decide) (by decide))).trans
        ((HostTail.result_eq m c).trans (by rw [Blocks.final]; rfl)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The host's slice of a vector of 1605632 entries to its first 1600000, at entry `e`: the vector's entry `e`. -/
theorem slice_apply {α : Type} (x : S1605632.Idx → α) (e : Fin 1600000) (he : e.val < 1605632) :
    extractStridedSlice S1600000 ![0] x slices_S1605632_S1600000_0 (ix1 e) = x (ix1 (⟨e.val, he⟩ : Fin 1605632)) := by
  unfold extractStridedSlice
  refine congrArg x (funext fun a => Fin.ext ?_)
  match a with
  | ⟨0, _⟩ => show 0 + e.val = e.val; omega

/-- Edge `e`'s score: the dot product of the two normalised rows its ids select, thresholded. -/
theorem att_apply (c : Dev nD)
    (hr : ∀ i : S2x1600000.Idx, 0 ≤ (m ((c : Thread nD τ).loc main_arg1) i).toInt ∧ (m ((c : Thread nD τ).loc main_arg1) i).toInt < 100000)
    (e : Fin 1600000) :
    att m c (ix1 e) = Cert.Cosine.scoreK (m ((c : Thread nD τ).loc main_arg0))
      (Cert.Cosine.nodeOf (m ((c : Thread nD τ).loc main_arg1) (ix2 (0 : Fin 2) e)))
      (Cert.Cosine.nodeOf (m ((c : Thread nD τ).loc main_arg1) (ix2 (1 : Fin 2) e))) := by
  have he : e.val < 1605632 := by have := e.isLt; omega
  unfold att
  refine (slice_apply (Blocks.rowDot (V m c main_v11) (V m c main_v12)) e he).trans ?_
  unfold Blocks.rowDot Cert.Cosine.scoreK
  refine congrArg Cert.Cosine.thr (Finset.sum_congr rfl fun k _ => ?_)
  refine congrArg₂ (· * ·) ?_ ?_
  · exact HostPrefix.gathered0_apply m c hr ⟨e.val, he⟩ e.isLt k
  · exact HostPrefix.gathered1_apply m c hr ⟨e.val, he⟩ e.isLt k

end Cert.KernelIdeal.Result

end
-- ==== Proof.RefScore.lean ====
/-
  THE REFERENCE PROGRAM'S THRESHOLDED EDGE SCORE, READ AT ONE EDGE.

  For an edge `e` the reference takes the two node ids `r = ei[0, e]` and `c = ei[1, e]`, wraps each as jnp wraps a
  negative index (`select (w <s 0) (w + 100000) w`), gathers the two rows of the node table at the wrapped ids, and
  forms `(0 + Σ_k x[r,k] · x[c,k]) / (max (√(0 + Σ_k x[r,k]²)) ε · max (√(0 + Σ_k x[c,k]²)) ε)`, which it replaces
  by zero when it is below the threshold.

  When the id is in `[0, 100000)` it is not negative, so the wrap returns it unchanged; the gather reads the row whose
  number is the id read signed and clamped into the table, which is `nodeOf` of the id by definition. Every other
  stage is pointwise or a row sum, so the score at `e` is `scoreR x (nodeOf r) (nodeOf c)`, term by term.
-/
import proofs.«424825_j51505247814280_3_alg».proof.Proof.Gen.ReferenceIdeal.Read
import proofs.«424825_j51505247814280_3_alg».proof.Proof.CosineSpec
import proofs.«424825_j51505247814280_3_alg».proof.Proof.LibGatherRows
import Idealize.ShloMosaic.Lib.ValueIdx
import Idealize.ShloMosaic.Lib.Pipeline.Value
import Idealize.ShloMosaic.PureOps.Ideal.Laws

noncomputable section

open scoped BigOperators

namespace Cert.ReferenceIdeal.RefScore

open Cert.ReferenceIdeal Cert.ReferenceIdeal.Gen Cert.ReferenceIdeal.Read Idealize.ShloMosaic Idealize.ShloMosaic.ValueIdx

/-! ## The wrap of an id that is not negative -/

/-- jnp's wrap of a negative index leaves a word that is not negative, read signed, as it is. -/
theorem wrap_eq (w : BitVec 32) (h0 : 0 ≤ w.toInt) :
    Scalar.select (IntOp.cmpi .slt w 0#32) (IntOp.addi w 100000#32) w = w := by
  have hb : ¬ IntOp.cmpi .slt w 0#32 = 1#1 := by
    rw [IntOp.cmpi_slt, show (0#32 : BitVec 32).toInt = 0 from by decide]
    omega
  rw [eq_zero_of_ne_one hb, select_zero]

/-! ## The two id vectors and their wrapped forms at edge `e` -/

/-- Row 0 of the edge list, flattened, reads `ei[0, e]` at `e`. -/
theorem idx_row0 (e : Fin 1600000) : idx_main_v0 (idx_main_v1 (ix1 e)) = ix2 (0 : Fin 2) e :=
  funext fun a => Fin.ext (by
    match a with
    | ⟨0, _⟩ => rfl
    | ⟨1, _⟩ => exact Nat.mod_eq_of_lt e.isLt)

/-- Row 1 of the edge list, flattened, reads `ei[1, e]` at `e`. -/
theorem idx_row1 (e : Fin 1600000) : idx_main_v2 (idx_main_v3 (ix1 e)) = ix2 (1 : Fin 2) e :=
  funext fun a => Fin.ext (by
    match a with
    | ⟨0, _⟩ => rfl
    | ⟨1, _⟩ => exact Nat.mod_eq_of_lt e.isLt)

theorem v1_apply (x1 : (⟨S2x1600000, .i32⟩ : BufTy).Contents (Elt Ideal)) (e : Fin 1600000) :
    val_main_v1 (F := Ideal) x1 (ix1 e) = x1 (ix2 (0 : Fin 2) e) := by
  rw [val_main_v1_apply, val_main_v0_apply, idx_row0]

theorem v3_apply (x1 : (⟨S2x1600000, .i32⟩ : BufTy).Contents (Elt Ideal)) (e : Fin 1600000) :
    val_main_v3 (F := Ideal) x1 (ix1 e) = x1 (ix2 (1 : Fin 2) e) := by
  rw [val_main_v3_apply, val_main_v2_apply, idx_row1]

/-- The wrapped source id at `e` is `ei[0, e]` when that id is not negative. -/
theorem v8_apply (x1 : (⟨S2x1600000, .i32⟩ : BufTy).Contents (Elt Ideal)) (e : Fin 1600000)
    (h0 : 0 ≤ (x1 (ix2 (0 : Fin 2) e)).toInt) :
    val_main_v8 (F := Ideal) x1 (ix1 e) = x1 (ix2 (0 : Fin 2) e) := by
  rw [val_main_v8_apply, val_main_v5_apply, val_main_v7_apply, val_main_v4_apply, val_main_c_apply, val_main_v6_apply,
    val_main_c_0_apply, v1_apply]
  exact wrap_eq _ h0

/-- The wrapped target id at `e` is `ei[1, e]` when that id is not negative. -/
theorem v15_apply (x1 : (⟨S2x1600000, .i32⟩ : BufTy).Contents (Elt Ideal)) (e : Fin 1600000)
    (h0 : 0 ≤ (x1 (ix2 (1 : Fin 2) e)).toInt) :
    val_main_v15 (F := Ideal) x1 (ix1 e) = x1 (ix2 (1 : Fin 2) e) := by
  rw [val_main_v15_apply, val_main_v12_apply, val_main_v14_apply, val_main_v11_apply, val_main_c_1_apply, val_main_v13_apply,
    val_main_c_2_apply, v3_apply]
  exact wrap_eq _ h0

/-- The column of start indices reads the id vector at its row. -/
theorem idx_col (e : Fin 1600000) : idx_main_v9 (ix2 e (0 : Fin 1)) = ix1 e :=
  funext fun a => Fin.ext (by match a with | ⟨0, _⟩ => rfl)

theorem v9_apply (x1 : (⟨S2x1600000, .i32⟩ : BufTy).Contents (Elt Ideal)) (e : Fin 1600000)
    (h0 : 0 ≤ (x1 (ix2 (0 : Fin 2) e)).toInt) :
    val_main_v9 (F := Ideal) x1 (ix2 e (0 : Fin 1)) = x1 (ix2 (0 : Fin 2) e) := by
  rw [val_main_v9_apply, idx_col, v8_apply x1 e h0]

theorem v16_apply (x1 : (⟨S2x1600000, .i32⟩ : BufTy).Contents (Elt Ideal)) (e : Fin 1600000)
    (h0 : 0 ≤ (x1 (ix2 (1 : Fin 2) e)).toInt) :
    val_main_v16 (F := Ideal) x1 (ix2 e (0 : Fin 1)) = x1 (ix2 (1 : Fin 2) e) := by
  rw [val_main_v16_apply, show idx_main_v16 (ix2 e (0 : Fin 1)) = ix1 e from idx_col e, v15_apply x1 e h0]

/-! ## The two gathered rows -/

/-- The source row gathered for edge `e` is row `nodeOf ei[0, e]` of the table. -/
theorem v10_apply (x0 : (⟨S100000x48, .f32⟩ : BufTy).Contents (Elt Ideal)) (x1 : (⟨S2x1600000, .i32⟩ : BufTy).Contents (Elt Ideal))
    (e : Fin 1600000) (h0 : 0 ≤ (x1 (ix2 (0 : Fin 2) e)).toInt) (k : Fin 48) :
    val_main_v10 (F := Ideal) x0 x1 (ix2 e k) = x0 (ix2 (Cert.Cosine.nodeOf (x1 (ix2 (0 : Fin 2) e))) k) := by
  have hg := Cert.LibGatherRows.gather_rows_apply (N := 100000) (R := 1600000) (D := 48) (by decide)
    gather_S100000x48_S1600000x1_S1600000x48_1_0_n_n_0_1_148_wf x0 (val_main_v9 (F := Ideal) x1) e k
  refine (show val_main_v10 (F := Ideal) x0 x1 (ix2 e k) = _ from hg).trans ?_
  exact congrArg (fun w : BitVec 32 => x0 (ix2 (Cert.Cosine.nodeOf w) k)) (v9_apply x1 e h0)

/-- The target row gathered for edge `e` is row `nodeOf ei[1, e]` of the table. -/
theorem v17_apply (x0 : (⟨S100000x48, .f32⟩ : BufTy).Contents (Elt Ideal)) (x1 : (⟨S2x1600000, .i32⟩ : BufTy).Contents (Elt Ideal))
    (e : Fin 1600000) (h0 : 0 ≤ (x1 (ix2 (1 : Fin 2) e)).toInt) (k : Fin 48) :
    val_main_v17 (F := Ideal) x0 x1 (ix2 e k) = x0 (ix2 (Cert.Cosine.nodeOf (x1 (ix2 (1 : Fin 2) e))) k) := by
  have hg := Cert.LibGatherRows.gather_rows_apply (N := 100000) (R := 1600000) (D := 48) (by decide)
    gather_S100000x48_S1600000x1_S1600000x48_1_0_n_n_0_1_148_wf x0 (val_main_v16 (F := Ideal) x1) e k
  refine (show val_main_v17 (F := Ideal) x0 x1 (ix2 e k) = _ from hg).trans ?_
  exact congrArg (fun w : BitVec 32 => x0 (ix2 (Cert.Cosine.nodeOf w) k)) (v16_apply x1 e h0)

/-! ## The three row sums -/

/-- A row sum's operand index at `(e, k)`. -/
theorem idx_sum (e : Fin 1600000) (k : Fin 48) : idx_main_v19 (ix1 e) k = ix2 e k :=
  funext fun a => Fin.ext (by match a with | ⟨0, _⟩ => rfl | ⟨1, _⟩ => rfl)

/-- The dot product of the two gathered rows. -/
theorem dot_apply (x0 : (⟨S100000x48, .f32⟩ : BufTy).Contents (Elt Ideal)) (x1 : (⟨S2x1600000, .i32⟩ : BufTy).Contents (Elt Ideal))
    (e : Fin 1600000) (hr0 : 0 ≤ (x1 (ix2 (0 : Fin 2) e)).toInt) (hc0 : 0 ≤ (x1 (ix2 (1 : Fin 2) e)).toInt) :
    val_main_v19 (F := Ideal) x0 x1 (ix1 e)
      = Ideal.ofBits .f32 0x00000000#32
        + ∑ k : Fin 48, x0 (ix2 (Cert.Cosine.nodeOf (x1 (ix2 (0 : Fin 2) e))) k) * x0 (ix2 (Cert.Cosine.nodeOf (x1 (ix2 (1 : Fin 2) e))) k) := by
  rw [val_main_v19_apply]
  refine congrArg (Ideal.ofBits .f32 0x00000000#32 + ·) (Finset.sum_congr rfl fun k _ => ?_)
  rw [idx_sum, val_main_v18_apply, v10_apply x0 x1 e hr0 k, v17_apply x0 x1 e hc0 k]
  rfl

/-- The source row's sum of squares. -/
theorem sq_r_apply (x0 : (⟨S100000x48, .f32⟩ : BufTy).Contents (Elt Ideal)) (x1 : (⟨S2x1600000, .i32⟩ : BufTy).Contents (Elt Ideal))
    (e : Fin 1600000) (hr0 : 0 ≤ (x1 (ix2 (0 : Fin 2) e)).toInt) :
    val_main_call0_v1 (F := Ideal) x0 x1 (ix1 e) = Cert.Cosine.sq x0 (Cert.Cosine.nodeOf (x1 (ix2 (0 : Fin 2) e))) := by
  rw [val_main_call0_v1_apply]
  refine congrArg (Ideal.ofBits .f32 0x00000000#32 + ·) (Finset.sum_congr rfl fun k _ => ?_)
  rw [show idx_main_call0_v1 (ix1 e) k = ix2 e k from idx_sum e k, val_main_call0_v0_apply, v10_apply x0 x1 e hr0 k]
  rfl

/-- The target row's sum of squares. -/
theorem sq_c_apply (x0 : (⟨S100000x48, .f32⟩ : BufTy).Contents (Elt Ideal)) (x1 : (⟨S2x1600000, .i32⟩ : BufTy).Contents (Elt Ideal))
    (e : Fin 1600000) (hc0 : 0 ≤ (x1 (ix2 (1 : Fin 2) e)).toInt) :
    val_main_call1_v1 (F := Ideal) x0 x1 (ix1 e) = Cert.Cosine.sq x0 (Cert.Cosine.nodeOf (x1 (ix2 (1 : Fin 2) e))) := by
  rw [val_main_call1_v1_apply]
  refine congrArg (Ideal.ofBits .f32 0x00000000#32 + ·) (Finset.sum_congr rfl fun k _ => ?_)
  rw [show idx_main_call1_v1 (ix1 e) k = ix2 e k from idx_sum e k, val_main_call1_v0_apply, v17_apply x0 x1 e hc0 k]
  rfl

/-! ## The clamped norms and the score -/

/-- The source row's clamped norm. -/
theorem nrm_r_apply (x0 : (⟨S100000x48, .f32⟩ : BufTy).Contents (Elt Ideal)) (x1 : (⟨S2x1600000, .i32⟩ : BufTy).Contents (Elt Ideal))
    (e : Fin 1600000) (hr0 : 0 ≤ (x1 (ix2 (0 : Fin 2) e)).toInt) :
    val_main_v22 (F := Ideal) x0 x1 (ix1 e) = Cert.Cosine.nrm x0 (Cert.Cosine.nodeOf (x1 (ix2 (0 : Fin 2) e))) := by
  rw [val_main_v22_apply, val_main_v20_apply, val_main_v21_apply, val_main_cst_3_apply, sq_r_apply x0 x1 e hr0]
  rfl

/-- The target row's clamped norm. -/
theorem nrm_c_apply (x0 : (⟨S100000x48, .f32⟩ : BufTy).Contents (Elt Ideal)) (x1 : (⟨S2x1600000, .i32⟩ : BufTy).Contents (Elt Ideal))
    (e : Fin 1600000) (hc0 : 0 ≤ (x1 (ix2 (1 : Fin 2) e)).toInt) :
    val_main_v25 (F := Ideal) x0 x1 (ix1 e) = Cert.Cosine.nrm x0 (Cert.Cosine.nodeOf (x1 (ix2 (1 : Fin 2) e))) := by
  rw [val_main_v25_apply, val_main_v23_apply, val_main_v24_apply, val_main_cst_4_apply, sq_c_apply x0 x1 e hc0]
  rfl

/-- THE SCORE AT AN EDGE: over ids in range, the reference's thresholded score of edge `e` is `scoreR` of the table at
    the two rows the edge's ids name. -/
theorem score_apply (x0 : (⟨S100000x48, .f32⟩ : BufTy).Contents (Elt Ideal)) (x1 : (⟨S2x1600000, .i32⟩ : BufTy).Contents (Elt Ideal))
    (hr : ∀ i : S2x1600000.Idx, 0 ≤ (x1 i).toInt ∧ (x1 i).toInt < 100000) (e : Fin 1600000) :
    val_main_v30 (F := Ideal) x0 x1 (ix1 e) = Cert.Cosine.scoreR x0 (Cert.Cosine.nodeOf (x1 (ix2 (0 : Fin 2) e))) (Cert.Cosine.nodeOf (x1 (ix2 (1 : Fin 2) e))) := by
  have hr0 := (hr (ix2 (0 : Fin 2) e)).1
  have hc0 := (hr (ix2 (1 : Fin 2) e)).1
  rw [val_main_v30_apply, val_main_v29_apply, val_main_v28_apply, val_main_cst_5_apply, val_main_call2_v1_apply,
    val_main_call2_v0_apply, val_main_cst_6_apply, val_main_v27_apply, val_main_v26_apply, dot_apply x0 x1 e hr0 hc0,
    nrm_r_apply x0 x1 e hr0, nrm_c_apply x0 x1 e hc0]
  rfl

end Cert.ReferenceIdeal.RefScore

end
-- ==== Proof.RefTail.lean ====
/-
  The reference program's result is the common host tail of ITS source ids and ITS edge scores: the stages after the
  thresholded score are, operation for operation, the tail's definition.
-/
import proofs.«424825_j51505247814280_3_alg».proof.Proof.Gen.ReferenceIdeal.Read
import proofs.«424825_j51505247814280_3_alg».proof.Proof.CosineTail

noncomputable section

namespace Cert.ReferenceIdeal.RefTail

open Cert.ReferenceIdeal Cert.ReferenceIdeal.Gen Cert.ReferenceIdeal.Read Idealize.ShloMosaic

/-- The last stage, from the source ids (stage 1) and the thresholded scores (stage 30). -/
theorem result_eq (x0 : (⟨S100000x48, .f32⟩ : BufTy).Contents (Elt Ideal)) (x1 : (⟨S2x1600000, .i32⟩ : BufTy).Contents (Elt Ideal)) :
    val_main_v45 (F := Ideal) x0 x1
      = Cert.Cosine.tail bcast_S_S100000 bcast_S_S1600000 bcast_S1600000_S1600000x1_0
          scatter_S100000_S1600000x1_S1600000_n_0_0_1 gather_S100000_S1600000x1_S1600000_n_0_n_n_0_1_1
          (val_main_v1 (F := Ideal) x1) (val_main_v30 (F := Ideal) x0 x1) := rfl

end Cert.ReferenceIdeal.RefTail

end
-- ==== Proof.Bridge.lean ====
/-
  The two programs compute one function.

  Under the precondition every entry of the table is a real number and every id lies in `[0, 100000)`. Then, edge by
  edge, the kernel's score (rows normalised, then a dot product) and the reference's (dot product over the product of
  the clamped norms) are one number (`Cert.Cosine.scoreK_eq_scoreR`); the source ids both host tails read are the same
  slice of the edge list; and both results are the common host tail of those ids and scores.
-/
import proofs.«424825_j51505247814280_3_alg».proof.Defs
import proofs.«424825_j51505247814280_3_alg».proof.Proof.Gen.Pre_finite_inputs
import proofs.«424825_j51505247814280_3_alg».proof.Proof.Gen.ReferenceIdeal.Run
import proofs.«424825_j51505247814280_3_alg».proof.Proof.Gen.ReferenceIdeal.Read
import proofs.«424825_j51505247814280_3_alg».proof.Proof.PreRead
import proofs.«424825_j51505247814280_3_alg».proof.Proof.KernelValue
import proofs.«424825_j51505247814280_3_alg».proof.Proof.RefScore
import proofs.«424825_j51505247814280_3_alg».proof.Proof.RefTail

noncomputable section

namespace Cert.Proof.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)

/-- The kernel's edge scores are the reference's, when the precondition holds of the arguments. -/
theorem att_eq (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Cert.KernelIdeal.Result.att m c
      = Cert.ReferenceIdeal.Read.val_main_v30 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  have hreal := Cert.PreRead.real_of_pre _ _ hpre
  have hr := Cert.PreRead.range_of_pre _ _ hpre
  funext i
  obtain ⟨e, rfl⟩ : ∃ e : Fin 1600000, i = ix1 e := ⟨i 0, eq_ix1 i⟩
  rw [Cert.KernelIdeal.Result.att_apply m c hr e, Cert.ReferenceIdeal.RefScore.score_apply _ _ hr e]
  exact Cert.Cosine.scoreK_eq_scoreR _ hreal _ _

/-- The source ids the kernel's host tail reads are the reference's stage 1: the first row of the edge list. -/
theorem row_eq (c : Dev Cert.KernelIdeal.nD) :
    (Cert.KernelIdeal.Gen.V m c Cert.KernelIdeal.main_v1 : Cert.KernelIdeal.S1600000.Idx → BitVec 32)
      = Cert.ReferenceIdeal.Read.val_main_v1 (F := Ideal) (m ((c.tc : Thread Cert.KernelIdeal.nD Cert.KernelIdeal.τ).loc Cert.KernelIdeal.main_arg1)) :=
  (Cert.KernelIdeal.HostPrefix.row_eq m c).trans rfl

/-- The kernel's result is the reference's last stage of the same arguments. -/
theorem res_eq (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Cert.KernelIdeal.Result.res m c
      = Cert.ReferenceIdeal.Read.val_main_v45 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.ReferenceIdeal.RefTail.result_eq, ← att_eq m c hpre, ← row_eq m c]
  rfl

end Cert.Proof.Bridge

end
-- ==== Proof.lean ====
/- The certificate of the edge-wise cosine-similarity kernel against its reference.

   Both programs score every edge of a graph by the cosine similarity of its endpoints' feature rows, zero a score
   below 0.1, sum the scores by source node, and return `exp (score / row sum)` (row sum `1` where it is `0`). They
   differ in ONE place: the kernel divides every row of the table by its clamped norm once and then takes plain dot
   products of gathered rows (inside its pipelined region, 8192 edges a point), where the reference gathers raw rows
   and divides each dot product by the product of the two clamped norms. Over a table of real numbers with every node
   id in range these are the same number, edge by edge (Proof/CosineSpec.lean); everything after the scores is one host
   computation both programs spell alike (Proof/CosineTail.lean).

   The three frames: the kernel's two are the generated frame certificates; the reference has no kernel, and its
   frame is its generated run with the results dropped. The idealization rewrote nothing, so `preserves` is `True`.
   The algebraic claim: the kernel's run with its result named (Proof/KernelValue.lean: the region's output vector
   from the blocks, Proof/KernelBlock.lean; the gathered matrices, Proof/KernelHost.lean; the host tail,
   Proof/KernelTail.lean), the reference's generated run read stage by stage (Proof/RefScore.lean,
   Proof/RefTail.lean), and the bridge between them (Proof/Bridge.lean). -/
import proofs.«424825_j51505247814280_3_alg».proof.Defs
import proofs.«424825_j51505247814280_3_alg».proof.Proof.Gen.Kernel
import proofs.«424825_j51505247814280_3_alg».proof.Proof.Gen.Kernel.Skeleton
import proofs.«424825_j51505247814280_3_alg».proof.Proof.Gen.Kernel.Launch
import proofs.«424825_j51505247814280_3_alg».proof.Proof.Gen.Kernel.Points
import proofs.«424825_j51505247814280_3_alg».proof.Proof.Gen.Kernel.Frame
import proofs.«424825_j51505247814280_3_alg».proof.Proof.Gen.KernelIdeal
import proofs.«424825_j51505247814280_3_alg».proof.Proof.Gen.KernelIdeal.Skeleton
import proofs.«424825_j51505247814280_3_alg».proof.Proof.Gen.KernelIdeal.Launch
import proofs.«424825_j51505247814280_3_alg».proof.Proof.Gen.KernelIdeal.Points
import proofs.«424825_j51505247814280_3_alg».proof.Proof.Gen.KernelIdeal.Frame
import proofs.«424825_j51505247814280_3_alg».proof.Proof.Gen.ReferenceIdeal
import proofs.«424825_j51505247814280_3_alg».proof.Proof.Gen.Pre_finite_inputs
import proofs.«424825_j51505247814280_3_alg».proof.Proof.Gen.ReferenceIdeal.Run
import proofs.«424825_j51505247814280_3_alg».proof.Proof.Gen.ReferenceIdeal.Read
import proofs.«424825_j51505247814280_3_alg».proof.Proof.Bridge
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its generated run, the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories agreeing on the arguments both programs end with the edge list unchanged and with
    `exp (score / row sum)` at the same scores: the kernel's run with its result named, the reference's generated run,
    and the bridge between the two result terms. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg1),
    fun c => Cert.KernelIdeal.Result.res m c, Cert.KernelIdeal.Result.run m ρ, ?_⟩
  refine (θ_run Cert.ReferenceIdeal.defs _ _).mono (fun r h c => ⟨?_, ?_, (h c).2.2.1, (h c).2.2.2⟩)
    (Cert.ReferenceIdeal.Value.run (F := Ideal) m' ρ')
  · exact (h c).1.trans (hagree c).2
  · rw [(h c).2.1, Cert.ReferenceIdeal.Read.val_main_v45_eq, (hagree c).1, (hagree c).2]
    exact (Cert.Proof.Bridge.res_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
